-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x128 : Shape := ⟨2, ![300000, 128]⟩
abbrev S1000000 : Shape := ⟨1, ![1000000]⟩
abbrev S300000 : Shape := ⟨1, ![300000]⟩
abbrev S61440 : Shape := ⟨1, ![61440]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S_ : Shape := ⟨0, ![]⟩

class Facts : Prop where
  bcast_S_S300000x128 : S_.BroadcastsInDim S300000x128 (![] : Fin 0 → Fin S300000x128.rank)
  reducesTo_S300000x128_S_d0_1 : S300000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x47 : S_.BroadcastsInDim S256x47 (![] : Fin 0 → Fin S256x47.rank)
  reducesTo_S256x47_S_d0_1 : S256x47.ReducesTo [0, 1] S_
  bcast_S_S47 : S_.BroadcastsInDim S47 (![] : Fin 0 → Fin S47.rank)
  reducesTo_S47_S_d0 : S47.ReducesTo [0] S_
  bcast_S_S1000000 : S_.BroadcastsInDim S1000000 (![] : Fin 0 → Fin S1000000.rank)
  reducesTo_S1000000_S_d0 : S1000000.ReducesTo [0] S_
  bcast_S_S300000 : S_.BroadcastsInDim S300000 (![] : Fin 0 → Fin S300000.rank)
  reducesTo_S300000_S_d0 : S300000.ReducesTo [0] S_
  bcast_S_S61440 : S_.BroadcastsInDim S61440 (![] : Fin 0 → Fin S61440.rank)
  reducesTo_S61440_S_d0 : S61440.ReducesTo [0] S_

variable [Facts]

def fn_part4 {F : FTy → Type} [FloatOps F] (main_arg5 : IVec S61440 32) (main_v64 : IVec S_ 1) (main_v66 : IVec S61440 1) : IVec S_ 1 :=
  let main_c_27 : IVec S_ 1 := constantI S_ 1 1#1
  let main_v67 : IVec S_ 1 := (fun x v => Host.reduce IntOp.andi x v reducesTo_S61440_S_d0 h_S_) main_v66 main_c_27
  let main_v68 : IVec S_ 1 := andi main_v64 main_v67
  let main_c_28 : IVec S_ 32 := constantI S_ 32 20000#32
  let main_v69 : IVec S61440 32 := broadcastInDim S61440 ![] bcast_S_S61440 main_c_28
  let main_v70 : IVec S61440 1 := cmpi .slt main_arg5 main_v69
  let main_c_29 : IVec S_ 1 := constantI S_ 1 1#1
  let main_v71 : IVec S_ 1 := (fun x v => Host.reduce IntOp.andi x v reducesTo_S61440_S_d0 h_S_) main_v70 main_c_29
  let main_v72 : IVec S_ 1 := andi main_v68 main_v71
  main_v72

def fn_part3 {F : FTy → Type} [FloatOps F] (main_arg1 : IVec S1000000 32) (main_arg3 : IVec S300000 32) (main_arg5 : IVec S61440 32) (main_v48 : IVec S_ 1) (main_v50 : IVec S1000000 1) : IVec S_ 1 :=
  let main_c_19 : IVec S_ 1 := constantI S_ 1 1#1
  let main_v51 : IVec S_ 1 := (fun x v => Host.reduce IntOp.andi x v reducesTo_S1000000_S_d0 h_S_) main_v50 main_c_19
  let main_v52 : IVec S_ 1 := andi main_v48 main_v51
  let main_c_20 : IVec S_ 32 := constantI S_ 32 300000#32
  let main_v53 : IVec S1000000 32 := broadcastInDim S1000000 ![] bcast_S_S1000000 main_c_20
  let main_v54 : IVec S1000000 1 := cmpi .slt main_arg1 main_v53
  let main_c_21 : IVec S_ 1 := constantI S_ 1 1#1
  let main_v55 : IVec S_ 1 := (fun x v => Host.reduce IntOp.andi x v reducesTo_S1000000_S_d0 h_S_) main_v54 main_c_21
  let main_v56 : IVec S_ 1 := andi main_v52 main_v55
  let main_c_22 : IVec S_ 32 := constantI S_ 32 0#32
  let main_v57 : IVec S300000 32 := broadcastInDim S300000 ![] bcast_S_S300000 main_c_22
  let main_v58 : IVec S300000 1 := cmpi .sge main_arg3 main_v57
  let main_c_23 : IVec S_ 1 := constantI S_ 1 1#1
  let main_v59 : IVec S_ 1 := (fun x v => Host.reduce IntOp.andi x v reducesTo_S300000_S_d0 h_S_) main_v58 main_c_23
  let main_v60 : IVec S_ 1 := andi main_v56 main_v59
  let main_c_24 : IVec S_ 32 := constantI S_ 32 100000#32
  let main_v61 : IVec S300000 32 := broadcastInDim S300000 ![] bcast_S_S300000 main_c_24
  let main_v62 : IVec S300000 1 := cmpi .slt main_arg3 main_v61
  let main_c_25 : IVec S_ 1 := constantI S_ 1 1#1
  let main_v63 : IVec S_ 1 := (fun x v => Host.reduce IntOp.andi x v reducesTo_S300000_S_d0 h_S_) main_v62 main_c_25
  let main_v64 : IVec S_ 1 := andi main_v60 main_v63
  let main_c_26 : IVec S_ 32 := constantI S_ 32 0#32
  let main_v65 : IVec S61440 32 := broadcastInDim S61440 ![] bcast_S_S61440 main_c_26
  let main_v66 : IVec S61440 1 := cmpi .sge main_arg5 main_v65
  fn_part4 (F := F) main_arg5 main_v64 main_v66

def fn_part2 {F : FTy → Type} [FloatOps F] (main_arg1 : IVec S1000000 32) (main_arg3 : IVec S300000 32) (main_arg5 : IVec S61440 32) (main_arg13 : FVec F S256x47 .f32) (main_arg14 : FVec F S256x47 .f32) (main_arg15 : FVec F S47 .f32) (main_v33 : IVec S_ 1) : IVec S_ 1 :=
  let main_v34 : FVec F S256x47 .f32 := Host.absf main_arg13
  let main_cst_12 : FVec F S_ .f32 := constant S_ .f32 0x7F800000#32
  let main_v35 : FVec F S256x47 .f32 := broadcastInDim S256x47 ![] bcast_S_S256x47 main_cst_12
  let main_v36 : IVec S256x47 1 := cmpf .olt main_v34 main_v35
  let main_c_13 : IVec S_ 1 := constantI S_ 1 1#1
  let main_v37 : IVec S_ 1 := (fun x v => Host.reduce IntOp.andi x v reducesTo_S256x47_S_d0_1 h_S_) main_v36 main_c_13
  let main_v38 : IVec S_ 1 := andi main_v33 main_v37
  let main_v39 : FVec F S256x47 .f32 := Host.absf main_arg14
  let main_cst_14 : FVec F S_ .f32 := constant S_ .f32 0x7F800000#32
  let main_v40 : FVec F S256x47 .f32 := broadcastInDim S256x47 ![] bcast_S_S256x47 main_cst_14
  let main_v41 : IVec S256x47 1 := cmpf .olt main_v39 main_v40
  let main_c_15 : IVec S_ 1 := constantI S_ 1 1#1
  let main_v42 : IVec S_ 1 := (fun x v => Host.reduce IntOp.andi x v reducesTo_S256x47_S_d0_1 h_S_) main_v41 main_c_15
  let main_v43 : IVec S_ 1 := andi main_v38 main_v42
  let main_v44 : FVec F S47 .f32 := Host.absf main_arg15
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  let main_c_18 : IVec S_ 32 := constantI S_ 32 0#32
  let main_v49 : IVec S1000000 32 := broadcastInDim S1000000 ![] bcast_S_S1000000 main_c_18
  let main_v50 : IVec S1000000 1 := cmpi .sge main_arg1 main_v49
  fn_part3 (F := F) main_arg1 main_arg3 main_arg5 main_v48 main_v50

def fn_part1 {F : FTy → Type} [FloatOps F] (main_arg1 : IVec S1000000 32) (main_arg3 : IVec S300000 32) (main_arg5 : IVec S61440 32) (main_arg10 : FVec F S256x256 .f32) (main_arg11 : FVec F S256x256 .f32) (main_arg12 : FVec F S256 .f32) (main_arg13 : FVec F S256x47 .f32) (main_arg14 : FVec F S256x47 .f32) (main_arg15 : FVec F S47 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg11
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg12
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg3 main_arg5 main_arg13 main_arg14 main_arg15 main_v33

def fn {F : FTy → Type} [FloatOps F] (main_arg0 : FVec F S300000x128 .f32) (main_arg1 : IVec S1000000 32) (main_arg2 : IVec S1000000 32) (main_arg3 : IVec S300000 32) (main_arg4 : IVec S300000 32) (main_arg5 : IVec S61440 32) (main_arg6 : IVec S61440 32) (main_arg7 : FVec F S128x256 .f32) (main_arg8 : FVec F S128x256 .f32) (main_arg9 : FVec F S256 .f32) (main_arg10 : FVec F S256x256 .f32) (main_arg11 : FVec F S256x256 .f32) (main_arg12 : FVec F S256 .f32) (main_arg13 : FVec F S256x47 .f32) (main_arg14 : FVec F S256x47 .f32) (main_arg15 : FVec F S47 .f32) : IVec S_ 1 :=
  let main_v0 : FVec F S300000x128 .f32 := Host.absf main_arg0
  let main_cst : FVec F S_ .f32 := constant S_ .f32 0x7F800000#32
  let main_v1 : FVec F S300000x128 .f32 := broadcastInDim S300000x128 ![] bcast_S_S300000x128 main_cst
  let main_v2 : IVec S300000x128 1 := cmpf .olt main_v0 main_v1
  let main_c : IVec S_ 1 := constantI S_ 1 1#1
  let main_v3 : IVec S_ 1 := (fun x v => Host.reduce IntOp.andi x v reducesTo_S300000x128_S_d0_1 h_S_) main_v2 main_c
  let main_v4 : FVec F S128x256 .f32 := Host.absf main_arg7
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg8
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg9
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg3 main_arg5 main_arg10 main_arg11 main_arg12 main_arg13 main_arg14 main_arg15 main_v13 main_v16
-- ==== Kernel.lean ====
abbrev S300000x128 : Shape := ⟨2, ![300000, 128]⟩
abbrev S1000000 : Shape := ⟨1, ![1000000]⟩
abbrev S300000 : Shape := ⟨1, ![300000]⟩
abbrev S61440 : Shape := ⟨1, ![61440]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S100000x128 : Shape := ⟨2, ![100000, 128]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩
abbrev S100000 : Shape := ⟨1, ![100000]⟩
abbrev S100000x1 : Shape := ⟨2, ![100000, 1]⟩
abbrev S100000x256 : Shape := ⟨2, ![100000, 256]⟩
abbrev S2000x128 : Shape := ⟨2, ![2000, 128]⟩
abbrev S2000x1 : Shape := ⟨2, ![2000, 1]⟩
abbrev S2000x256 : Shape := ⟨2, ![2000, 256]⟩
abbrev S1x256 : Shape := ⟨2, ![1, 256]⟩
abbrev S20000x256 : Shape := ⟨2, ![20000, 256]⟩
abbrev S300000x1 : Shape := ⟨2, ![300000, 1]⟩
abbrev S300000x256 : Shape := ⟨2, ![300000, 256]⟩
abbrev S20000 : Shape := ⟨1, ![20000]⟩
abbrev S20000x1 : Shape := ⟨2, ![20000, 1]⟩
abbrev S4096x256 : Shape := ⟨2, ![4096, 256]⟩
abbrev S61440x1 : Shape := ⟨2, ![61440, 1]⟩
abbrev S61440x256 : Shape := ⟨2, ![61440, 256]⟩
abbrev S4096 : Shape := ⟨1, ![4096]⟩
abbrev S4096x1 : Shape := ⟨2, ![4096, 1]⟩
abbrev S4096x47 : Shape := ⟨2, ![4096, 47]⟩
abbrev S512x256 : Shape := ⟨2, ![512, 256]⟩
abbrev S512x1 : Shape := ⟨2, ![512, 1]⟩
abbrev S512x47 : Shape := ⟨2, ![512, 47]⟩
abbrev S1x47 : Shape := ⟨2, ![1, 47]⟩

abbrev nBuf : Space → Nat
  | .hbm => 124
  | .vmem => 33
  | .smem => 0
  | _ => 0

abbrev bufTy : (tb : Table) → Fin (tcTables nBuf tb) → BufTy
  | .hbm, ⟨0, _⟩ => ⟨S300000x128, .f32⟩
  | .hbm, ⟨1, _⟩ => ⟨S1000000, .i32⟩
  | .hbm, ⟨2, _⟩ => ⟨S1000000, .i32⟩
  | .hbm, ⟨3, _⟩ => ⟨S300000, .i32⟩
  | .hbm, ⟨4, _⟩ => ⟨S300000, .i32⟩
  | .hbm, ⟨5, _⟩ => ⟨S61440, .i32⟩
  | .hbm, ⟨6, _⟩ => ⟨S61440, .i32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S100000x128, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1, .i32⟩
  | .hbm, ⟨26, _⟩ => ⟨S_, .i32⟩
  | .hbm, ⟨27, _⟩ => ⟨S1000000x1, .i32⟩
  | .hbm, ⟨28, _⟩ => ⟨S1000000x1, .i1⟩
  | .hbm, ⟨29, _⟩ => ⟨S1x1, .i32⟩
  | .hbm, ⟨30, _⟩ => ⟨S1000000x1, .i32⟩
  | .hbm, ⟨31, _⟩ => ⟨S1000000x1, .i1⟩
  | .hbm, ⟨32, _⟩ => ⟨S1000000x1, .i1⟩
  | .hbm, ⟨33, _⟩ => ⟨S_, .i1⟩
  | .hbm, ⟨34, _⟩ => ⟨S1000000, .i1⟩
  | .hbm, ⟨35, _⟩ => ⟨S1000000x128, .f32⟩
  | .hbm, ⟨36, _⟩ => ⟨S1000000x128, .i1⟩
  | .hbm, ⟨37, _⟩ => ⟨S_, .f32⟩
  | .hbm, ⟨38, _⟩ => ⟨S1000000x128, .f32⟩
  | .hbm, ⟨39, _⟩ => ⟨S1000000x128, .f32⟩
  | .hbm, ⟨40, _⟩ => ⟨S_, .f32⟩
  | .hbm, ⟨41, _⟩ => ⟨S100000x128, .f32⟩
  | .hbm, ⟨42, _⟩ => ⟨S1000000x1, .i32⟩
  | .hbm, ⟨43, _⟩ => ⟨S100000x128, .f32⟩
  | .hbm, ⟨44, _⟩ => ⟨S_, .f32⟩
  | .hbm, ⟨45, _⟩ => ⟨S1000000, .f32⟩
  | .hbm, ⟨46, _⟩ => ⟨S_, .f32⟩
  | .hbm, ⟨47, _⟩ => ⟨S100000, .f32⟩
  | .hbm, ⟨48, _⟩ => ⟨S1000000x1, .i32⟩
  | .hbm, ⟨49, _⟩ => ⟨S100000, .f32⟩
  | .hbm, ⟨50, _⟩ => ⟨S100000x1, .f32⟩
  | .hbm, ⟨51, _⟩ => ⟨S100000x256, .f32⟩
  | .hbm, ⟨52, _⟩ => ⟨S20000x256, .f32⟩
  | .hbm, ⟨53, _⟩ => ⟨S_, .i32⟩
  | .hbm, ⟨54, _⟩ => ⟨S300000, .i32⟩
  | .hbm, ⟨55, _⟩ => ⟨S300000, .i1⟩
  | .hbm, ⟨56, _⟩ => ⟨S_, .i32⟩
  | .hbm, ⟨57, _⟩ => ⟨S300000, .i32⟩
  | .hbm, ⟨58, _⟩ => ⟨S300000, .i32⟩
  | .hbm, ⟨59, _⟩ => ⟨S300000, .i32⟩
  | .hbm, ⟨60, _⟩ => ⟨S300000x1, .i32⟩
  | .hbm, ⟨61, _⟩ => ⟨S1, .i32⟩
  | .hbm, ⟨62, _⟩ => ⟨S_, .i32⟩
  | .hbm, ⟨63, _⟩ => ⟨S300000x1, .i32⟩
  | .hbm, ⟨64, _⟩ => ⟨S300000x1, .i1⟩
  | .hbm, ⟨65, _⟩ => ⟨S1x1, .i32⟩
  | .hbm, ⟨66, _⟩ => ⟨S300000x1, .i32⟩
  | .hbm, ⟨67, _⟩ => ⟨S300000x1, .i1⟩
  | .hbm, ⟨68, _⟩ => ⟨S300000x1, .i1⟩
  | .hbm, ⟨69, _⟩ => ⟨S_, .i1⟩
  | .hbm, ⟨70, _⟩ => ⟨S300000, .i1⟩
  | .hbm, ⟨71, _⟩ => ⟨S300000x256, .f32⟩
  | .hbm, ⟨72, _⟩ => ⟨S300000x256, .i1⟩
  | .hbm, ⟨73, _⟩ => ⟨S_, .f32⟩
  | .hbm, ⟨74, _⟩ => ⟨S300000x256, .f32⟩
  | .hbm, ⟨75, _⟩ => ⟨S300000x256, .f32⟩
  | .hbm, ⟨76, _⟩ => ⟨S_, .f32⟩
  | .hbm, ⟨77, _⟩ => ⟨S20000x256, .f32⟩
  | .hbm, ⟨78, _⟩ => ⟨S300000x1, .i32⟩
  | .hbm, ⟨79, _⟩ => ⟨S20000x256, .f32⟩
  | .hbm, ⟨80, _⟩ => ⟨S_, .f32⟩
  | .hbm, ⟨81, _⟩ => ⟨S300000, .f32⟩
  | .hbm, ⟨82, _⟩ => ⟨S_, .f32⟩
  | .hbm, ⟨83, _⟩ => ⟨S20000, .f32⟩
  | .hbm, ⟨84, _⟩ => ⟨S300000x1, .i32⟩
  | .hbm, ⟨85, _⟩ => ⟨S20000, .f32⟩
  | .hbm, ⟨86, _⟩ => ⟨S20000x1, .f32⟩
  | .hbm, ⟨87, _⟩ => ⟨S20000x256, .f32⟩
  | .hbm, ⟨88, _⟩ => ⟨S4096x256, .f32⟩
  | .hbm, ⟨89, _⟩ => ⟨S_, .i32⟩
  | .hbm, ⟨90, _⟩ => ⟨S61440, .i32⟩
  | .hbm, ⟨91, _⟩ => ⟨S61440, .i1⟩
  | .hbm, ⟨92, _⟩ => ⟨S_, .i32⟩
  | .hbm, ⟨93, _⟩ => ⟨S61440, .i32⟩
  | .hbm, ⟨94, _⟩ => ⟨S61440, .i32⟩
  | .hbm, ⟨95, _⟩ => ⟨S61440, .i32⟩
  | .hbm, ⟨96, _⟩ => ⟨S61440x1, .i32⟩
  | .hbm, ⟨97, _⟩ => ⟨S1, .i32⟩
  | .hbm, ⟨98, _⟩ => ⟨S_, .i32⟩
  | .hbm, ⟨99, _⟩ => ⟨S61440x1, .i32⟩
  | .hbm, ⟨100, _⟩ => ⟨S61440x1, .i1⟩
  | .hbm, ⟨101, _⟩ => ⟨S1x1, .i32⟩
  | .hbm, ⟨102, _⟩ => ⟨S61440x1, .i32⟩
  | .hbm, ⟨103, _⟩ => ⟨S61440x1, .i1⟩
  | .hbm, ⟨104, _⟩ => ⟨S61440x1, .i1⟩
  | .hbm, ⟨105, _⟩ => ⟨S_, .i1⟩
  | .hbm, ⟨106, _⟩ => ⟨S61440, .i1⟩
  | .hbm, ⟨107, _⟩ => ⟨S61440x256, .f32⟩
  | .hbm, ⟨108, _⟩ => ⟨S61440x256, .i1⟩
  | .hbm, ⟨109, _⟩ => ⟨S_, .f32⟩
  | .hbm, ⟨110, _⟩ => ⟨S61440x256, .f32⟩
  | .hbm, ⟨111, _⟩ => ⟨S61440x256, .f32⟩
  | .hbm, ⟨112, _⟩ => ⟨S_, .f32⟩
  | .hbm, ⟨113, _⟩ => ⟨S4096x256, .f32⟩
  | .hbm, ⟨114, _⟩ => ⟨S61440x1, .i32⟩
  | .hbm, ⟨115, _⟩ => ⟨S4096x256, .f32⟩
  | .hbm, ⟨116, _⟩ => ⟨S_, .f32⟩
  | .hbm, ⟨117, _⟩ => ⟨S61440, .f32⟩
  | .hbm, ⟨118, _⟩ => ⟨S_, .f32⟩
  | .hbm, ⟨119, _⟩ => ⟨S4096, .f32⟩
  | .hbm, ⟨120, _⟩ => ⟨S61440x1, .i32⟩
  | .hbm, ⟨121, _⟩ => ⟨S4096, .f32⟩
  | .hbm, ⟨122, _⟩ => ⟨S4096x1, .f32⟩
  | .hbm, ⟨123, _⟩ => ⟨S4096x47, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .f32⟩
  | .local _ .vmem, ⟨7, _⟩ => ⟨S128x256, .f32⟩
  | .local _ .vmem, ⟨8, _⟩ => ⟨S256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x1, .f32⟩
  | .local _ .vmem, ⟨16, _⟩ => ⟨S2000x1, .f32⟩
  | .local _ .vmem, ⟨17, _⟩ => ⟨S256x256, .f32⟩
  | .local _ .vmem, ⟨18, _⟩ => ⟨S256x256, .f32⟩
  | .local _ .vmem, ⟨19, _⟩ => ⟨S256, .f32⟩
  | .local _ .vmem, ⟨20, _⟩ => ⟨S2000x256, .f32⟩
  | .local _ .vmem, ⟨21, _⟩ => ⟨S2000x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x1, .f32⟩
  | .local _ .vmem, ⟨27, _⟩ => ⟨S512x1, .f32⟩
  | .local _ .vmem, ⟨28, _⟩ => ⟨S256x47, .f32⟩
  | .local _ .vmem, ⟨29, _⟩ => ⟨S256x47, .f32⟩
  | .local _ .vmem, ⟨30, _⟩ => ⟨S47, .f32⟩
  | .local _ .vmem, ⟨31, _⟩ => ⟨S512x47, .f32⟩
  | .local _ .vmem, ⟨32, _⟩ => ⟨S512x47, .f32⟩
  | _, _ => ⟨S300000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v1 : Ref sig .tc := ⟨.hbm, 39, rfl⟩
abbrev main_cst : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_cst_0 : Ref sig .tc := ⟨.hbm, 44, rfl⟩
abbrev main_v5 : Ref sig .tc := ⟨.hbm, 45, rfl⟩
abbrev main_cst_1 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v12 : Ref sig .tc := ⟨.hbm, 75, rfl⟩
abbrev main_cst_2 : Ref sig .tc := ⟨.hbm, 76, rfl⟩
abbrev main_v13 : Ref sig .tc := ⟨.hbm, 77, rfl⟩
abbrev main_v14 : Ref sig .tc := ⟨.hbm, 78, rfl⟩
abbrev main_v15 : Ref sig .tc := ⟨.hbm, 79, rfl⟩
abbrev main_cst_3 : Ref sig .tc := ⟨.hbm, 80, rfl⟩
abbrev main_v16 : Ref sig .tc := ⟨.hbm, 81, rfl⟩
abbrev main_cst_4 : Ref sig .tc := ⟨.hbm, 82, rfl⟩
abbrev main_v17 : Ref sig .tc := ⟨.hbm, 83, rfl⟩
abbrev main_v18 : Ref sig .tc := ⟨.hbm, 84, rfl⟩
abbrev main_v19 : Ref sig .tc := ⟨.hbm, 85, rfl⟩
abbrev main_v20 : Ref sig .tc := ⟨.hbm, 86, rfl⟩
abbrev main_v21 : Ref sig .tc := ⟨.hbm, 87, rfl⟩
abbrev main_v22 : Ref sig .tc := ⟨.hbm, 88, rfl⟩
abbrev main_call2_c : Ref sig .tc := ⟨.hbm, 89, rfl⟩
abbrev main_call2_v0 : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_c_1 : Ref sig .tc := ⟨.hbm, 97, rfl⟩
abbrev main_call2_c_2 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_call2_c_3 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_call2_cst : Ref sig .tc := ⟨.hbm, 109, rfl⟩
abbrev main_call2_v15 : Ref sig .tc := ⟨.hbm, 110, rfl⟩
abbrev main_v23 : Ref sig .tc := ⟨.hbm, 111, rfl⟩
abbrev main_cst_5 : Ref sig .tc := ⟨.hbm, 112, rfl⟩
abbrev main_v24 : Ref sig .tc := ⟨.hbm, 113, rfl⟩
abbrev main_v25 : Ref sig .tc := ⟨.hbm, 114, rfl⟩
abbrev main_v26 : Ref sig .tc := ⟨.hbm, 115, rfl⟩
abbrev main_cst_6 : Ref sig .tc := ⟨.hbm, 116, rfl⟩
abbrev main_v27 : Ref sig .tc := ⟨.hbm, 117, rfl⟩
abbrev main_cst_7 : Ref sig .tc := ⟨.hbm, 118, rfl⟩
abbrev main_v28 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S256x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x47 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S300000x128_S100000x128_0_0 : S300000x128.Slices ![0, 0] S100000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S2000x1_S2000x128 : S2000x1.Broadcasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  slices_S100000x256_S20000x256_0_0 : S100000x256.Slices ![0, 0] S20000x256
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1x1_S300000x1_0_1 : S1x1.BroadcastsInDim S300000x1 (![0, 1] : Fin 2 → Fin S300000x1.rank)
  reducesTo_S300000x1_S300000_d1 : S300000x1.ReducesTo [1] S300000
  bcast_S300000_S300000x256_0 : S300000.BroadcastsInDim S300000x256 (![0] : Fin 1 → Fin S300000x256.rank)
  bcast_S_S300000x256 : S_.BroadcastsInDim S300000x256 (![] : Fin 0 → Fin S300000x256.rank)
  bcast_S_S20000x256 : S_.BroadcastsInDim S20000x256 (![] : Fin 0 → Fin S20000x256.rank)
  bcast_S_S20000 : S_.BroadcastsInDim S20000 (![] : Fin 0 → Fin S20000.rank)
  shapeCasts_S20000_S20000x1 : S20000.ShapeCasts S20000x1
  shapeCasts_S2000x256_S2000x256 : S2000x256.ShapeCasts S2000x256
  broadcasts_S2000x1_S2000x256 : S2000x1.Broadcasts S2000x256
  inb_S256x256_S256x256_0_0 : ∀ a, (![0, 0] : Fin 2 → Nat) a + S256x256.size a ≤ S256x256.size a
  h_S256x256 : 0 < S256x256.numel
  slices_S20000x256_S4096x256_0_0 : S20000x256.Slices ![0, 0] S4096x256
  bcast_S_S61440 : S_.BroadcastsInDim S61440 (![] : Fin 0 → Fin S61440.rank)
  bcast_S61440_S61440x1_0 : S61440.BroadcastsInDim S61440x1 (![0] : Fin 1 → Fin S61440x1.rank)
  bcast_S_S61440x1 : S_.BroadcastsInDim S61440x1 (![] : Fin 0 → Fin S61440x1.rank)
  bcast_S1x1_S61440x1_0_1 : S1x1.BroadcastsInDim S61440x1 (![0, 1] : Fin 2 → Fin S61440x1.rank)
  reducesTo_S61440x1_S61440_d1 : S61440x1.ReducesTo [1] S61440
  bcast_S61440_S61440x256_0 : S61440.BroadcastsInDim S61440x256 (![0] : Fin 1 → Fin S61440x256.rank)
  bcast_S_S61440x256 : S_.BroadcastsInDim S61440x256 (![] : Fin 0 → Fin S61440x256.rank)
  bcast_S_S4096x256 : S_.BroadcastsInDim S4096x256 (![] : Fin 0 → Fin S4096x256.rank)
  bcast_S_S4096 : S_.BroadcastsInDim S4096 (![] : Fin 0 → Fin S4096.rank)
  shapeCasts_S4096_S4096x1 : S4096.ShapeCasts S4096x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S512x1_S512x256 : S512x1.Broadcasts S512x256
  inb_S256x47_S256x47_0_0 : ∀ a, (![0, 0] : Fin 2 → Nat) a + S256x47.size a ≤ S256x47.size a
  h_S256x47 : 0 < S256x47.numel
  inb_S47_S47_0 : ∀ a, (![0] : Fin 1 → Nat) a + S47.size a ≤ S47.size a
  h_S47 : 0 < S47.numel
  shapeCasts_S47_S1x47 : S47.ShapeCasts S1x47
  broadcasts_S1x47_S512x47 : S1x47.Broadcasts S512x47
  inb_S512x47_S512x47_0_0 : ∀ a, (![0, 0] : Fin 2 → Nat) a + S512x47.size a ≤ S512x47.size a
  h_S512x47 : 0 < S512x47.numel
  gather_S300000x128_S1000000x1_S1000000x128_1_0_n_n_0_1_1128_wf : GatherDims.WF S300000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S2000x128_S128x256_S2000x256_1_0_0_1_n_n_wf : DotDims.WF S2000x128 S128x256 S2000x256 [1] [0] [0] [1] [] []
  gather_S100000x256_S300000x1_S300000x256_1_0_n_n_0_1_1256_wf : GatherDims.WF S100000x256 S300000x1 S300000x256 [1] [0] [] [0] [] 1 ![1, 256]
  scatter_S20000x256_S300000x1_S300000x256_1_0_0_1_wf : ScatterDims.WF S20000x256 S300000x1 S300000x256 [1] [0] [0] 1
  scatter_S20000_S300000x1_S300000_n_0_0_1_wf : ScatterDims.WF S20000 S300000x1 S300000 [] [0] [0] 1
  dot_S2000x256_S256x256_S2000x256_1_0_0_1_n_n_wf : DotDims.WF S2000x256 S256x256 S2000x256 [1] [0] [0] [1] [] []
  gather_S20000x256_S61440x1_S61440x256_1_0_n_n_0_1_1256_wf : GatherDims.WF S20000x256 S61440x1 S61440x256 [1] [0] [] [0] [] 1 ![1, 256]
  scatter_S4096x256_S61440x1_S61440x256_1_0_0_1_wf : ScatterDims.WF S4096x256 S61440x1 S61440x256 [1] [0] [0] 1
  scatter_S4096_S61440x1_S61440_n_0_0_1_wf : ScatterDims.WF S4096 S61440x1 S61440 [] [0] [0] 1
  dot_S512x256_S256x47_S512x47_1_0_0_1_n_n_wf : DotDims.WF S512x256 S256x47 S512x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S100000x256.size a
  hwx0_6 : ∀ i : grid0.Coords, EltTy.bits .f32 = 32 ∨ (Rect.block (s := S100000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S20000x1.size a
  hwx1_2 : ∀ i : grid1.Coords, EltTy.bits .f32 = 32 ∨ (Rect.block (s := S20000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S20000x256.size a
  hwx1_6 : ∀ i : grid1.Coords, EltTy.bits .f32 = 32 ∨ (Rect.block (s := S20000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S4096x256.size a
  hwx2_0 : ∀ i : grid2.Coords, EltTy.bits .f32 = 32 ∨ (Rect.block (s := S4096x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S4096x256.size a
  hwx2_1 : ∀ i : grid2.Coords, EltTy.bits .f32 = 32 ∨ (Rect.block (s := S4096x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S4096x1.size a
  hwx2_2 : ∀ i : grid2.Coords, EltTy.bits .f32 = 32 ∨ (Rect.block (s := S4096x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x47.size a ≤ S256x47.size a
  hwx2_3 : ∀ i : grid2.Coords, EltTy.bits .f32 = 32 ∨ (Rect.block (s := S256x47) S256x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x47.size a ≤ S256x47.size a
  hwx2_4 : ∀ i : grid2.Coords, EltTy.bits .f32 = 32 ∨ (Rect.block (s := S256x47) S256x47.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S47.size a ≤ S47.size a
  hwx2_5 : ∀ i : grid2.Coords, EltTy.bits .f32 = 32 ∨ (Rect.block (s := S47) S47.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x47.size a ≤ S4096x47.size a
  hwx2_6 : ∀ i : grid2.Coords, EltTy.bits .f32 = 32 ∨ (Rect.block (s := S4096x47) S512x47.size (cc2_transform_6 i) (hinb2_6 i)).WholeWords (EltTy.packing .f32)

variable [Facts₀]

def gather_S300000x128_S1000000x1_S1000000x128_1_0_n_n_0_1_1128 : GatherDims S300000x128 S1000000x1 S1000000x128 where
  offsetDims := [1]
  collapsedSliceDims := [0]
  operandBatchingDims := []
  startIndicesBatchingDims := []
  startIndexMap := [0]
  indexVectorDim := 1
  sliceSizes := ![1, 128]
  wf := gather_S300000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S20000x256_S61440x1_S61440x256_1_0_n_n_0_1_1256 : GatherDims S20000x256 S61440x1 S61440x256 where
  offsetDims := [1]
  collapsedSliceDims := [0]
  operandBatchingDims := []
  startIndicesBatchingDims := []
  startIndexMap := [0]
  indexVectorDim := 1
  sliceSizes := ![1, 256]
  wf := gather_S20000x256_S61440x1_S61440x256_1_0_n_n_0_1_1256_wf
def scatter_S4096x256_S61440x1_S61440x256_1_0_0_1 : ScatterDims S4096x256 S61440x1 S61440x256 where
  updateWindowDims := [1]
  insertedWindowDims := [0]
  scatterDimsToOperandDims := [0]
  indexVectorDim := 1
  wf := scatter_S4096x256_S61440x1_S61440x256_1_0_0_1_wf
def scatter_S4096_S61440x1_S61440_n_0_0_1 : ScatterDims S4096 S61440x1 S61440 where
  updateWindowDims := []
  insertedWindowDims := [0]
  scatterDimsToOperandDims := [0]
  indexVectorDim := 1
  wf := scatter_S4096_S61440x1_S61440_n_0_0_1_wf
def dot_S512x256_S256x47_S512x47_1_0_0_1_n_n : DotDims S512x256 S256x47 S512x47 where
  lhsContracting := [1]
  rhsContracting := [0]
  lhsNonContracting := [0]
  rhsNonContracting := [1]
  lhsBatch := []
  rhsBatch := []
  wf := dot_S512x256_S256x47_S512x47_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v22) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S256x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S256x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S47.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v32) S512x47.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S300000x128 : Shape := ⟨2, ![300000, 128]⟩
abbrev S1000000 : Shape := ⟨1, ![1000000]⟩
abbrev S300000 : Shape := ⟨1, ![300000]⟩
abbrev S61440 : Shape := ⟨1, ![61440]⟩
abbrev S128x256 : Shape := ⟨2, ![128, 256]⟩
abbrev S256 : Shape := ⟨1, ![256]⟩
abbrev S256x256 : Shape := ⟨2, ![256, 256]⟩
abbrev S256x47 : Shape := ⟨2, ![256, 47]⟩
abbrev S47 : Shape := ⟨1, ![47]⟩
abbrev S100000x128 : Shape := ⟨2, ![100000, 128]⟩
abbrev S_ : Shape := ⟨0, ![]⟩
abbrev S1000000x1 : Shape := ⟨2, ![1000000, 1]⟩
abbrev S1000000x128 : Shape := ⟨2, ![1000000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S20000x256 : Shape := ⟨2, ![20000, 256]⟩
abbrev S300000x1 : Shape := ⟨2, ![300000, 1]⟩
abbrev S300000x256 : Shape := ⟨2, ![300000, 256]⟩
abbrev S20000 : Shape := ⟨1, ![20000]⟩
abbrev S20000x1 : Shape := ⟨2, ![20000, 1]⟩
abbrev S4096x256 : Shape := ⟨2, ![4096, 256]⟩
abbrev S61440x1 : Shape := ⟨2, ![61440, 1]⟩
abbrev S61440x256 : Shape := ⟨2, ![61440, 256]⟩
abbrev S4096 : Shape := ⟨1, ![4096]⟩
abbrev S4096x1 : Shape := ⟨2, ![4096, 1]⟩
abbrev S4096x47 : Shape := ⟨2, ![4096, 47]⟩
abbrev S1x47 : Shape := ⟨2, ![1, 47]⟩

abbrev nBuf : Space → Nat
  | .hbm => 118
  | .vmem => 0
  | .smem => 0
  | _ => 0

abbrev bufTy : (tb : Table) → Fin (tcTables nBuf tb) → BufTy
  | .hbm, ⟨0, _⟩ => ⟨S300000x128, .f32⟩
  | .hbm, ⟨1, _⟩ => ⟨S1000000, .i32⟩
  | .hbm, ⟨2, _⟩ => ⟨S1000000, .i32⟩
  | .hbm, ⟨3, _⟩ => ⟨S300000, .i32⟩
  | .hbm, ⟨4, _⟩ => ⟨S300000, .i32⟩
  | .hbm, ⟨5, _⟩ => ⟨S61440, .i32⟩
  | .hbm, ⟨6, _⟩ => ⟨S61440, .i32⟩
  | .hbm, ⟨7, _⟩ => ⟨S128x256, .f32⟩
  | .hbm, ⟨8, _⟩ => ⟨S128x256, .f32⟩
  | .hbm, ⟨9, _⟩ => ⟨S256, .f32⟩
  | .hbm, ⟨10, _⟩ => ⟨S256x256, .f32⟩
  | .hbm, ⟨11, _⟩ => ⟨S256x256, .f32⟩
  | .hbm, ⟨12, _⟩ => ⟨S256, .f32⟩
  | .hbm, ⟨13, _⟩ => ⟨S256x47, .f32⟩
  | .hbm, ⟨14, _⟩ => ⟨S256x47, .f32⟩
  | .hbm, ⟨15, _⟩ => ⟨S47, .f32⟩
  | .hbm, ⟨16, _⟩ => ⟨S100000x128, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x128, .f32⟩
  | .hbm, ⟨26, _⟩ => ⟨S_, .f32⟩
  | .hbm, ⟨27, _⟩ => ⟨S100000x128, .f32⟩
  | .hbm, ⟨28, _⟩ => ⟨S1000000x1, .i32⟩
  | .hbm, ⟨29, _⟩ => ⟨S100000x128, .f32⟩
  | .hbm, ⟨30, _⟩ => ⟨S_, .f32⟩
  | .hbm, ⟨31, _⟩ => ⟨S1000000, .f32⟩
  | .hbm, ⟨32, _⟩ => ⟨S_, .f32⟩
  | .hbm, ⟨33, _⟩ => ⟨S100000, .f32⟩
  | .hbm, ⟨34, _⟩ => ⟨S1000000x1, .i32⟩
  | .hbm, ⟨35, _⟩ => ⟨S100000, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S100000x256, .f32⟩
  | .hbm, ⟨43, _⟩ => ⟨S100000x256, .f32⟩
  | .hbm, ⟨44, _⟩ => ⟨S100000x256, .f32⟩
  | .hbm, ⟨45, _⟩ => ⟨S1x256, .f32⟩
  | .hbm, ⟨46, _⟩ => ⟨S100000x256, .f32⟩
  | .hbm, ⟨47, _⟩ => ⟨S100000x256, .f32⟩
  | .hbm, ⟨48, _⟩ => ⟨S_, .f32⟩
  | .hbm, ⟨49, _⟩ => ⟨S100000x256, .f32⟩
  | .hbm, ⟨50, _⟩ => ⟨S100000x256, .f32⟩
  | .hbm, ⟨51, _⟩ => ⟨S20000x256, .f32⟩
  | .hbm, ⟨52, _⟩ => ⟨S_, .i32⟩
  | .hbm, ⟨53, _⟩ => ⟨S300000, .i32⟩
  | .hbm, ⟨54, _⟩ => ⟨S300000, .i1⟩
  | .hbm, ⟨55, _⟩ => ⟨S_, .i32⟩
  | .hbm, ⟨56, _⟩ => ⟨S300000, .i32⟩
  | .hbm, ⟨57, _⟩ => ⟨S300000, .i32⟩
  | .hbm, ⟨58, _⟩ => ⟨S300000, .i32⟩
  | .hbm, ⟨59, _⟩ => ⟨S300000x1, .i32⟩
  | .hbm, ⟨60, _⟩ => ⟨S300000x256, .f32⟩
  | .hbm, ⟨61, _⟩ => ⟨S_, .f32⟩
  | .hbm, ⟨62, _⟩ => ⟨S20000x256, .f32⟩
  | .hbm, ⟨63, _⟩ => ⟨S300000x1, .i32⟩
  | .hbm, ⟨64, _⟩ => ⟨S20000x256, .f32⟩
  | .hbm, ⟨65, _⟩ => ⟨S_, .f32⟩
  | .hbm, ⟨66, _⟩ => ⟨S300000, .f32⟩
  | .hbm, ⟨67, _⟩ => ⟨S_, .f32⟩
  | .hbm, ⟨68, _⟩ => ⟨S20000, .f32⟩
  | .hbm, ⟨69, _⟩ => ⟨S300000x1, .i32⟩
  | .hbm, ⟨70, _⟩ => ⟨S20000, .f32⟩
  | .hbm, ⟨71, _⟩ => ⟨S_, .f32⟩
  | .hbm, ⟨72, _⟩ => ⟨S20000, .f32⟩
  | .hbm, ⟨73, _⟩ => ⟨S20000, .f32⟩
  | .hbm, ⟨74, _⟩ => ⟨S20000x1, .f32⟩
  | .hbm, ⟨75, _⟩ => ⟨S20000x256, .f32⟩
  | .hbm, ⟨76, _⟩ => ⟨S20000x256, .f32⟩
  | .hbm, ⟨77, _⟩ => ⟨S20000x256, .f32⟩
  | .hbm, ⟨78, _⟩ => ⟨S20000x256, .f32⟩
  | .hbm, ⟨79, _⟩ => ⟨S20000x256, .f32⟩
  | .hbm, ⟨80, _⟩ => ⟨S1x256, .f32⟩
  | .hbm, ⟨81, _⟩ => ⟨S20000x256, .f32⟩
  | .hbm, ⟨82, _⟩ => ⟨S20000x256, .f32⟩
  | .hbm, ⟨83, _⟩ => ⟨S_, .f32⟩
  | .hbm, ⟨84, _⟩ => ⟨S20000x256, .f32⟩
  | .hbm, ⟨85, _⟩ => ⟨S20000x256, .f32⟩
  | .hbm, ⟨86, _⟩ => ⟨S4096x256, .f32⟩
  | .hbm, ⟨87, _⟩ => ⟨S_, .i32⟩
  | .hbm, ⟨88, _⟩ => ⟨S61440, .i32⟩
  | .hbm, ⟨89, _⟩ => ⟨S61440, .i1⟩
  | .hbm, ⟨90, _⟩ => ⟨S_, .i32⟩
  | .hbm, ⟨91, _⟩ => ⟨S61440, .i32⟩
  | .hbm, ⟨92, _⟩ => ⟨S61440, .i32⟩
  | .hbm, ⟨93, _⟩ => ⟨S61440, .i32⟩
  | .hbm, ⟨94, _⟩ => ⟨S61440x1, .i32⟩
  | .hbm, ⟨95, _⟩ => ⟨S61440x256, .f32⟩
  | .hbm, ⟨96, _⟩ => ⟨S_, .f32⟩
  | .hbm, ⟨97, _⟩ => ⟨S4096x256, .f32⟩
  | .hbm, ⟨98, _⟩ => ⟨S61440x1, .i32⟩
  | .hbm, ⟨99, _⟩ => ⟨S4096x256, .f32⟩
  | .hbm, ⟨100, _⟩ => ⟨S_, .f32⟩
  | .hbm, ⟨101, _⟩ => ⟨S61440, .f32⟩
  | .hbm, ⟨102, _⟩ => ⟨S_, .f32⟩
  | .hbm, ⟨103, _⟩ => ⟨S4096, .f32⟩
  | .hbm, ⟨104, _⟩ => ⟨S61440x1, .i32⟩
  | .hbm, ⟨105, _⟩ => ⟨S4096, .f32⟩
  | .hbm, ⟨106, _⟩ => ⟨S_, .f32⟩
  | .hbm, ⟨107, _⟩ => ⟨S4096, .f32⟩
  | .hbm, ⟨108, _⟩ => ⟨S4096, .f32⟩
  | .hbm, ⟨109, _⟩ => ⟨S4096x1, .f32⟩
  | .hbm, ⟨110, _⟩ => ⟨S4096x256, .f32⟩
  | .hbm, ⟨111, _⟩ => ⟨S4096x256, .f32⟩
  | .hbm, ⟨112, _⟩ => ⟨S4096x47, .f32⟩
  | .hbm, ⟨113, _⟩ => ⟨S4096x47, .f32⟩
  | .hbm, ⟨114, _⟩ => ⟨S4096x47, .f32⟩
  | .hbm, ⟨115, _⟩ => ⟨S1x47, .f32⟩
  | .hbm, ⟨116, _⟩ => ⟨S4096x47, .f32⟩
  | .hbm, ⟨117, _⟩ => ⟨S4096x47, .f32⟩
  | _, _ => ⟨S300000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_cst : Ref sig .tc := ⟨.hbm, 48, rfl⟩
abbrev main_call0_v0 : Ref sig .tc := ⟨.hbm, 49, rfl⟩
abbrev main_v26 : Ref sig .tc := ⟨.hbm, 50, rfl⟩
abbrev main_v27 : Ref sig .tc := ⟨.hbm, 51, rfl⟩
abbrev main_c_4 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_7 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_call1_cst : Ref sig .tc := ⟨.hbm, 83, rfl⟩
abbrev main_call1_v0 : Ref sig .tc := ⟨.hbm, 84, rfl⟩
abbrev main_v53 : Ref sig .tc := ⟨.hbm, 85, rfl⟩
abbrev main_v54 : Ref sig .tc := ⟨.hbm, 86, rfl⟩
abbrev main_c_10 : Ref sig .tc := ⟨.hbm, 87, rfl⟩
abbrev main_v55 : Ref sig .tc := ⟨.hbm, 88, rfl⟩
abbrev main_v56 : Ref sig .tc := ⟨.hbm, 89, rfl⟩
abbrev main_c_11 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_13 : Ref sig .tc := ⟨.hbm, 100, rfl⟩
abbrev main_v65 : Ref sig .tc := ⟨.hbm, 101, rfl⟩
abbrev main_cst_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_cst_15 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩

abbrev nD : Nat := 1
abbrev τ : Topo := Topo.v7x

variable {F : FTy → Type} [FloatOps F]

class Facts₀ : Prop where
  slices_S300000x128_S100000x128_0_0 : S300000x128.Slices ![0, 0] S100000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  slices_S100000x256_S20000x256_0_0 : S100000x256.Slices ![0, 0] S20000x256
  bcast_S_S300000 : S_.BroadcastsInDim S300000 (![] : Fin 0 → Fin S300000.rank)
  bcast_S300000_S300000x1_0 : S300000.BroadcastsInDim S300000x1 (![0] : Fin 1 → Fin S300000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S1x256_S20000x256_0_1 : S1x256.BroadcastsInDim S20000x256 (![0, 1] : Fin 2 → Fin S20000x256.rank)
  slices_S20000x256_S4096x256_0_0 : S20000x256.Slices ![0, 0] S4096x256
  bcast_S_S61440 : S_.BroadcastsInDim S61440 (![] : Fin 0 → Fin S61440.rank)
  bcast_S61440_S61440x1_0 : S61440.BroadcastsInDim S61440x1 (![0] : Fin 1 → Fin S61440x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S47_S1x47_1 : S47.BroadcastsInDim S1x47 (![1] : Fin 1 → Fin S1x47.rank)
  bcast_S1x47_S4096x47_0_1 : S1x47.BroadcastsInDim S4096x47 (![0, 1] : Fin 2 → Fin S4096x47.rank)
  gather_S300000x128_S1000000x1_S1000000x128_1_0_n_n_0_1_1128_wf : GatherDims.WF S300000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S100000x128_S128x256_S100000x256_1_0_0_1_n_n_wf : DotDims.WF S100000x128 S128x256 S100000x256 [1] [0] [0] [1] [] []
  gather_S100000x256_S300000x1_S300000x256_1_0_n_n_0_1_1256_wf : GatherDims.WF S100000x256 S300000x1 S300000x256 [1] [0] [] [0] [] 1 ![1, 256]
  scatter_S20000x256_S300000x1_S300000x256_1_0_0_1_wf : ScatterDims.WF S20000x256 S300000x1 S300000x256 [1] [0] [0] 1
  scatter_S20000_S300000x1_S300000_n_0_0_1_wf : ScatterDims.WF S20000 S300000x1 S300000 [] [0] [0] 1
  dot_S20000x256_S256x256_S20000x256_1_0_0_1_n_n_wf : DotDims.WF S20000x256 S256x256 S20000x256 [1] [0] [0] [1] [] []
  gather_S20000x256_S61440x1_S61440x256_1_0_n_n_0_1_1256_wf : GatherDims.WF S20000x256 S61440x1 S61440x256 [1] [0] [] [0] [] 1 ![1, 256]
  scatter_S4096x256_S61440x1_S61440x256_1_0_0_1_wf : ScatterDims.WF S4096x256 S61440x1 S61440x256 [1] [0] [0] 1
  scatter_S4096_S61440x1_S61440_n_0_0_1_wf : ScatterDims.WF S4096 S61440x1 S61440 [] [0] [0] 1
  dot_S4096x256_S256x47_S4096x47_1_0_0_1_n_n_wf : DotDims.WF S4096x256 S256x47 S4096x47 [1] [0] [0] [1] [] []

variable [Facts₀]

def gather_S300000x128_S1000000x1_S1000000x128_1_0_n_n_0_1_1128 : GatherDims S300000x128 S1000000x1 S1000000x128 where
  offsetDims := [1]
  collapsedSliceDims := [0]
  operandBatchingDims := []
  startIndicesBatchingDims := []
  startIndexMap := [0]
  indexVectorDim := 1
  sliceSizes := ![1, 128]
  wf := gather_S300000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def scatter_S20000x256_S300000x1_S300000x256_1_0_0_1 : ScatterDims S20000x256 S300000x1 S300000x256 where
  updateWindowDims := [1]
  insertedWindowDims := [0]
  scatterDimsToOperandDims := [0]
  indexVectorDim := 1
  wf := scatter_S20000x256_S300000x1_S300000x256_1_0_0_1_wf
def scatter_S20000_S300000x1_S300000_n_0_0_1 : ScatterDims S20000 S300000x1 S300000 where
  updateWindowDims := []
  insertedWindowDims := [0]
  scatterDimsToOperandDims := [0]
  indexVectorDim := 1
  wf := scatter_S20000_S300000x1_S300000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def gather_S20000x256_S61440x1_S61440x256_1_0_n_n_0_1_1256 : GatherDims S20000x256 S61440x1 S61440x256 where
  offsetDims := [1]
  collapsedSliceDims := [0]
  operandBatchingDims := []
  startIndicesBatchingDims := []
  startIndexMap := [0]
  indexVectorDim := 1
  sliceSizes := ![1, 256]
  wf := gather_S20000x256_S61440x1_S61440x256_1_0_n_n_0_1_1256_wf
def scatter_S4096x256_S61440x1_S61440x256_1_0_0_1 : ScatterDims S4096x256 S61440x1 S61440x256 where
  updateWindowDims := [1]
  insertedWindowDims := [0]
  scatterDimsToOperandDims := [0]
  indexVectorDim := 1
  wf := scatter_S4096x256_S61440x1_S61440x256_1_0_0_1_wf
def scatter_S4096_S61440x1_S61440_n_0_0_1 : ScatterDims S4096 S61440x1 S61440 where
  updateWindowDims := []
  insertedWindowDims := [0]
  scatterDimsToOperandDims := [0]
  indexVectorDim := 1
  wf := scatter_S4096_S61440x1_S61440_n_0_0_1_wf
def dot_S4096x256_S256x47_S4096x47_1_0_0_1_n_n : DotDims S4096x256 S256x47 S4096x47 where
  lhsContracting := [1]
  rhsContracting := [0]
  lhsNonContracting := [0]
  rhsNonContracting := [1]
  lhsBatch := []
  rhsBatch := []
  wf := dot_S4096x256_S256x47_S4096x47_1_0_0_1_n_n_wf

class Facts : Prop extends Facts₀ where

variable [Facts]
-- ==== Proof.Spec.lean ====
/-
  One layer of mean-aggregating graph convolution, as a function of whole arrays, entry by entry, on the
  extended reals.  For destination row `r` and output column `q`
      out[r, q] = (Σ_k hdst[r, k] · Ws[k, q]  +  Σ_k (agg[r, k] / max(deg[r], 1)) · Wn[k, q])  +  b[q],
  and the two hidden layers clamp that below at 0.  `hdst` holds the destination nodes' own features,
  `agg` the sum of the features of each node's in-neighbours and `deg` their number; how `agg` and
  `deg` come about (a gather and two scatter-additions) is not opened here: they are parameters.
  The literal words are kept as words: 0x3F800000 is the float 1, 0x00000000 the float 0.
-/
import Idealize.ShloMosaic.PureOps.Ideal
import Idealize.ShloMosaic.Lib.ValueIdx

noncomputable section

open scoped BigOperators

namespace Cert.Sage

open Idealize.ShloMosaic Idealize.ShloMosaic.ValueIdx

/-- The float 1 and the float 0, as their words denote them. -/
abbrev one32 : EReal := Ideal.ofBits .f32 0x3F800000#32
abbrev zero32 : EReal := Ideal.ofBits .f32 0x00000000#32

/-- One entry before the clamp: the row of own features against a column of `Ws`, plus the row of summed
    neighbour features, each divided by the clamped in-degree, against the same column of `Wn`, plus the bias. -/
def entry {d : Nat} (hrow nrow : Fin d → EReal) (deg : EReal) (ws wn : Fin d → EReal) (b : EReal) : EReal :=
  ((∑ k : Fin d, hrow k * ws k) + ∑ k : Fin d, Ideal.div (nrow k) (max deg one32) * wn k) + b

/-- The clamp of the two hidden layers: the maximum with the float 0. -/
def clamp (x : EReal) : EReal := max x zero32

/-- The first hidden layer: 100000 destination rows, 128 features in, 256 out, clamped at 0. -/
def layer0 (hdst agg : (⟨2, ![100000, 128]⟩ : Shape).Idx → EReal) (deg : (⟨1, ![100000]⟩ : Shape).Idx → EReal)
    (Ws Wn : (⟨2, ![128, 256]⟩ : Shape).Idx → EReal) (b : (⟨1, ![256]⟩ : Shape).Idx → EReal) :
    (⟨2, ![100000, 256]⟩ : Shape).Idx → EReal := fun i =>
  clamp (entry (fun k => hdst (ix2 (⟨(i 0).val, (i 0).isLt⟩ : Fin 100000) k)) (fun k => agg (ix2 (⟨(i 0).val, (i 0).isLt⟩ : Fin 100000) k))
        (deg (ix1 (⟨(i 0).val, (i 0).isLt⟩ : Fin 100000)))
        (fun k => Ws (ix2 k (⟨(i 1).val, (i 1).isLt⟩ : Fin 256))) (fun k => Wn (ix2 k (⟨(i 1).val, (i 1).isLt⟩ : Fin 256)))
        (b (ix1 (⟨(i 1).val, (i 1).isLt⟩ : Fin 256))))

/-- The second hidden layer: 20000 destination rows, 256 features in, 256 out, clamped at 0. -/
def layer1 (hdst agg : (⟨2, ![20000, 256]⟩ : Shape).Idx → EReal) (deg : (⟨1, ![20000]⟩ : Shape).Idx → EReal)
    (Ws Wn : (⟨2, ![256, 256]⟩ : Shape).Idx → EReal) (b : (⟨1, ![256]⟩ : Shape).Idx → EReal) :
    (⟨2, ![20000, 256]⟩ : Shape).Idx → EReal := fun i =>
  clamp (entry (fun k => hdst (ix2 (⟨(i 0).val, (i 0).isLt⟩ : Fin 20000) k)) (fun k => agg (ix2 (⟨(i 0).val, (i 0).isLt⟩ : Fin 20000) k))
        (deg (ix1 (⟨(i 0).val, (i 0).isLt⟩ : Fin 20000)))
        (fun k => Ws (ix2 k (⟨(i 1).val, (i 1).isLt⟩ : Fin 256))) (fun k => Wn (ix2 k (⟨(i 1).val, (i 1).isLt⟩ : Fin 256)))
        (b (ix1 (⟨(i 1).val, (i 1).isLt⟩ : Fin 256))))

/-- The output layer: 4096 destination rows, 256 features in, 47 out, no clamp. -/
def layer2 (hdst agg : (⟨2, ![4096, 256]⟩ : Shape).Idx → EReal) (deg : (⟨1, ![4096]⟩ : Shape).Idx → EReal)
    (Ws Wn : (⟨2, ![256, 47]⟩ : Shape).Idx → EReal) (b : (⟨1, ![47]⟩ : Shape).Idx → EReal) :
    (⟨2, ![4096, 47]⟩ : Shape).Idx → EReal := fun i =>
  entry (fun k => hdst (ix2 (⟨(i 0).val, (i 0).isLt⟩ : Fin 4096) k)) (fun k => agg (ix2 (⟨(i 0).val, (i 0).isLt⟩ : Fin 4096) k))
        (deg (ix1 (⟨(i 0).val, (i 0).isLt⟩ : Fin 4096)))
        (fun k => Ws (ix2 k (⟨(i 1).val, (i 1).isLt⟩ : Fin 47))) (fun k => Wn (ix2 k (⟨(i 1).val, (i 1).isLt⟩ : Fin 47)))
        (b (ix1 (⟨(i 1).val, (i 1).isLt⟩ : Fin 47)))

end Cert.Sage

end
-- ==== Proof.LibColumnBroadcast.lean ====
/-
  A column, read at an entry: a vector cast to a one-column array, and a one-column array broadcast along its
  unit axis.
-/
import Idealize.ShloMosaic.Lib.ValueIdx
import Idealize.ShloMosaic.Lib.Pipeline.Value

namespace Cert.LibColumnBroadcast

open Idealize.ShloMosaic Idealize.ShloMosaic.ValueIdx Idealize.ShloMosaic.Pipeline

variable {α : Type}

/-- An `[a, 1]` array broadcast to `[a, b]` reads, at `(p, c)`, the operand's one column at row `p`:
    every entry of row `p` of the result is the operand's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column array read as a vector: entry `i` is the column's entry `(i, 0)`. -/
def column {a : ℕ} (v : (⟨2, ![a, 1]⟩ : Shape).Idx → α) : (⟨1, ![a]⟩ : Shape).Idx → α :=
  fun i => v (ix2 (⟨(i 0).val, (i 0).isLt⟩ : Fin a) (0 : Fin 1))

/-- The column of a vector cast to one column is the vector. -/
theorem column_shapeCast {a : ℕ} (x : (⟨1, ![a]⟩ : Shape).Idx → α) (h : (⟨1, ![a]⟩ : Shape).ShapeCasts ⟨2, ![a, 1]⟩) :
    column (shapeCast ⟨2, ![a, 1]⟩ x h) = x := by
  funext i
  unfold column
  rw [shapeCast_a_a1_apply]
  exact congrArg x (eq_ix1 i).symm

end Cert.LibColumnBroadcast
-- ==== Proof.KerBody0.lean ====
/-
  The first layer's kernel body, read at one entry of its output block.
  The body holds a block of 2000 destination rows: their own features (2000 x 128), the summed neighbour
  features (2000 x 128) and the in-degree column (2000 x 1), beside the whole of both weight matrices
  (128 x 256) and the bias (256).  On the extended reals the two changes of float format are the identity and a
  matrix product into a zero accumulator is the plain sum over the contracted axis, so entry (p, q) of what
  the body stores is
      (Σ_k own[p,k]·Ws[k,q] + Σ_k (nbr[p,k] / max(deg[p,0], 1))·Wn[k,q]) + b[q],
  finished as the layer finishes it (Spec): the layer's entry at the block's rows.
-/
import proofs.«401218_j13065290515269_1_alg».proof.Proof.Gen.KernelIdeal.Skeleton
import proofs.«401218_j13065290515269_1_alg».proof.Proof.Spec
import proofs.«401218_j13065290515269_1_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body0

open Cert.KernelIdeal Cert.KernelIdeal.Gen Idealize.ShloMosaic Idealize.ShloMosaic.TcCoe
open Idealize.ShloMosaic.ValueIdx Idealize.ShloMosaic.Pipeline

/-! ## The matrix product of a 2000 x 128 block with a 128 x 256 matrix, at an entry -/

theorem lhs_axis0 (i : S2000x256.Idx) (r : dot_S2000x128_S128x256_S2000x256_1_0_0_1_n_n.contr.Idx) :
    (dot_S2000x128_S128x256_S2000x256_1_0_0_1_n_n.lhsIdx i r 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_axis1 (i : S2000x256.Idx) (r : dot_S2000x128_S128x256_S2000x256_1_0_0_1_n_n.contr.Idx) :
    (dot_S2000x128_S128x256_S2000x256_1_0_0_1_n_n.lhsIdx i r 1).val = (r ⟨0, by decide⟩).val :=
  dot_S2000x128_S128x256_S2000x256_1_0_0_1_n_n.lhsIdx_val_of_single rfl i r
theorem rhs_axis0 (i : S2000x256.Idx) (r : dot_S2000x128_S128x256_S2000x256_1_0_0_1_n_n.contr.Idx) :
    (dot_S2000x128_S128x256_S2000x256_1_0_0_1_n_n.rhsIdx i r 0).val = (r ⟨0, by decide⟩).val :=
  dot_S2000x128_S128x256_S2000x256_1_0_0_1_n_n.rhsIdx_val_of_single rfl i r
theorem rhs_axis1 (i : S2000x256.Idx) (r : dot_S2000x128_S128x256_S2000x256_1_0_0_1_n_n.contr.Idx) :
    (dot_S2000x128_S128x256_S2000x256_1_0_0_1_n_n.rhsIdx i r 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- Row `p` of the left factor against column `q` of the right one. -/
theorem product_at (lhs : FVec Ideal S2000x128 .bf16) (rhs : FVec Ideal S128x256 .bf16) (p : Fin 2000) (q : Fin 256) :
    matmul dot_S2000x128_S128x256_S2000x256_1_0_0_1_n_n none lhs rhs (constant S2000x256 .f32 0x00000000#32) (ix2 p q)
      = ∑ k : Fin 128, lhs (ix2 p k) * rhs (ix2 k q) := by
  show FloatOps.matmul dot_S2000x128_S128x256_S2000x256_1_0_0_1_n_n none lhs rhs (constant S2000x256 .f32 0x00000000#32) (ix2 p q) = _
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx (ix2 p q) ((ValueIdx.contrEquiv1 dot_S2000x128_S128x256_S2000x256_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x256_S2000x256_1_0_0_1_n_n.rhsIdx (ix2 p q) ((ValueIdx.contrEquiv1 dot_S2000x128_S128x256_S2000x256_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The body's stored value at entry (p, q) -/

/-- Entry `(p, q)` of the stored block is the layer's entry at the block's own rows. -/
theorem stored_at (deg : Vec Ideal S2000x1 .f32) (nbr own : Vec Ideal S2000x128 .f32) (Ws Wn : Vec Ideal S128x256 .f32)
    (b : Vec Ideal S256 .f32) (p : Fin 2000) (q : Fin 256) :
    k0_pay1 (F := Ideal) deg nbr own Ws Wn b (ix2 p q) =
      Cert.Sage.clamp (Cert.Sage.entry (fun k => own (ix2 p k)) (fun k => nbr (ix2 p k)) (deg (ix2 p (0 : Fin 1)))
        (fun k => Ws (ix2 k q)) (fun k => Wn (ix2 k q)) (b (ix1 q))) := by
  unfold k0_pay1
  simp only [maximumf_apply, addf_apply, broadcast_apply, product_at, truncf_apply, divf_apply, shapeCast_self,
    Cert.LibColumnBroadcast.broadcastTo_a1_ab_apply, broadcastTo_1b_ab_apply, shapeCast_a_1a_apply]
  rfl

end Cert.KernelIdeal.Body0

end
-- ==== Proof.KerArray0.lean ====
/-
  The first kernel region's output array, as one function of the six arrays the region finds.
  The grid has 50 points; point `t` holds rows 2000·t … 2000·t + 1999 of the three row-blocked inputs (own
  features, summed neighbour features, in-degree column) and of the output, and the whole of both weight matrices
  and the bias.  What point `t` writes back is therefore rows 2000·t … of the layer function (Spec) of the whole
  input arrays, and the 50 row blocks tile the 100000 rows: the output array ends holding that function.
-/
import proofs.«401218_j13065290515269_1_alg».proof.Proof.Gen.KernelIdeal.Frame
import proofs.«401218_j13065290515269_1_alg».proof.Proof.KerBody0

set_option maxRecDepth 16384

noncomputable section

open scoped BigOperators

namespace Cert.KernelIdeal.Array0

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the 50 points: the row-blocked windows and the output sit at block row `t`,
    block column 0; the weights and the bias at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `p` of point `t`'s block is row 2000·t + p of the array. -/
theorem row_lt (t : Fin cfg0.N) (p : Fin 2000) : t.val * 2000 + p.val < 100000 := by
  have h : t.val < cfg0.N := t.isLt
  have hN : cfg0.N = 50 := N_0
  have hp : p.val < 2000 := p.isLt
  omega

/-- The layer function of the six arrays the region finds. -/
abbrev result (c : Dev nD) : S100000x256.Idx → Elt Ideal .f32 :=
  Cert.Sage.layer0 (V c main_v0 : S100000x128.Idx → Elt Ideal .f32) (V c main_v4 : S100000x128.Idx → Elt Ideal .f32)
    (Cert.LibColumnBroadcast.column (V c main_v9 : S100000x1.Idx → Elt Ideal .f32))
    (V c main_arg7 : S128x256.Idx → Elt Ideal .f32) (V c main_arg8 : S128x256.Idx → Elt Ideal .f32) (V c main_arg9 : S256.Idx → Elt Ideal .f32)

/-! ## Each input block, read at an entry, is the array at the block's place -/

theorem own_at (c : Dev nD) (t : Fin cfg0.N) (p : Fin 2000) (k : Fin 128) :
    (iblk0 V c 0 t : Vec Ideal S2000x128 .f32) (ix2 p k)
      = (V c main_v0 : S100000x128.Idx → Elt Ideal .f32) (ix2 (⟨t.val * 2000 + p.val, row_lt t p⟩ : Fin 100000) k) := by
  obtain ⟨e0, e1, -⟩ := index_facts t
  unfold iblk0
  rw [View.read_apply]
  show V c main_v0 _ = V c main_v0 _
  congr 1
  funext a
  apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

theorem nbr_at (c : Dev nD) (t : Fin cfg0.N) (p : Fin 2000) (k : Fin 128) :
    (iblk0 V c 1 t : Vec Ideal S2000x128 .f32) (ix2 p k)
      = (V c main_v4 : S100000x128.Idx → Elt Ideal .f32) (ix2 (⟨t.val * 2000 + p.val, row_lt t p⟩ : Fin 100000) k) := by
  obtain ⟨-, -, e0, e1, -⟩ := index_facts t
  unfold iblk0
  rw [View.read_apply]
  show V c main_v4 _ = V c main_v4 _
  congr 1
  funext a
  apply Fin.ext
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

theorem deg_at (c : Dev nD) (t : Fin cfg0.N) (p : Fin 2000) :
    (iblk0 V c 2 t : Vec Ideal S2000x1 .f32) (ix2 p (0 : Fin 1))
      = (V c main_v9 : S100000x1.Idx → Elt Ideal .f32) (ix2 (⟨t.val * 2000 + p.val, row_lt t p⟩ : Fin 100000) (0 : Fin 1)) := by
  obtain ⟨-, -, -, -, e0, e1, -⟩ := index_facts t
  unfold iblk0
  rw [View.read_apply]
  show V c main_v9 _ = V c main_v9 _
  congr 1
  funext a
  apply Fin.ext
  match a with
  | ⟨0, _⟩ => show win0_2.index t (0 : Fin 2) * 2000 + 1 * p.val = t.val * 2000 + p.val; rw [e0]; omega
  | ⟨1, _⟩ => show win0_2.index t (1 : Fin 2) * 1 + 1 * (0 : Fin 1).val = (0 : Fin 1).val; rw [e1]; rfl

theorem ws_at (c : Dev nD) (t : Fin cfg0.N) (k : Fin 128) (q : Fin 256) :
    (iblk0 V c 3 t : Vec Ideal S128x256 .f32) (ix2 k q) = (V c main_arg7 : S128x256.Idx → Elt Ideal .f32) (ix2 k q) := by
  obtain ⟨-, -, -, -, -, -, e0, e1, -⟩ := index_facts t
  unfold iblk0
  rw [View.read_apply]
  show V c main_arg7 _ = V c main_arg7 _
  congr 1
  funext a
  apply Fin.ext
  match a with
  | ⟨0, _⟩ => show win0_3.index t (0 : Fin 2) * 128 + 1 * k.val = k.val; rw [e0]; omega
  | ⟨1, _⟩ => show win0_3.index t (1 : Fin 2) * 256 + 1 * q.val = q.val; rw [e1]; omega

theorem wn_at (c : Dev nD) (t : Fin cfg0.N) (k : Fin 128) (q : Fin 256) :
    (iblk0 V c 4 t : Vec Ideal S128x256 .f32) (ix2 k q) = (V c main_arg8 : S128x256.Idx → Elt Ideal .f32) (ix2 k q) := by
  obtain ⟨-, -, -, -, -, -, -, -, e0, e1, -⟩ := index_facts t
  unfold iblk0
  rw [View.read_apply]
  show V c main_arg8 _ = V c main_arg8 _
  congr 1
  funext a
  apply Fin.ext
  match a with
  | ⟨0, _⟩ => show win0_4.index t (0 : Fin 2) * 128 + 1 * k.val = k.val; rw [e0]; omega
  | ⟨1, _⟩ => show win0_4.index t (1 : Fin 2) * 256 + 1 * q.val = q.val; rw [e1]; omega

theorem bias_at (c : Dev nD) (t : Fin cfg0.N) (q : Fin 256) :
    (iblk0 V c 5 t : Vec Ideal S256 .f32) (ix1 q) = (V c main_arg9 : S256.Idx → Elt Ideal .f32) (ix1 q) := by
  obtain ⟨-, -, -, -, -, -, -, -, -, -, e0, -⟩ := index_facts t
  unfold iblk0
  rw [View.read_apply]
  show V c main_arg9 _ = V c main_arg9 _
  congr 1
  funext a
  apply Fin.ext
  match a with
  | ⟨0, _⟩ => show win0_5.index t (0 : Fin 1) * 256 + 1 * q.val = q.val; rw [e0]; omega

/-- Entry `(p, q)` of the output's block at point `t` sits at row 2000·t + p, column q of the array. -/
theorem out_at (t : Fin cfg0.N) (p : Fin 2000) (q : Fin 256) :
    (((cfg0.win 6).blk t).view.emb (ix2 p q) : S100000x256.Idx) = ix2 (⟨t.val * 2000 + p.val, row_lt t p⟩ : Fin 100000) q := by
  obtain ⟨-, -, -, -, -, -, -, -, -, -, -, e0, e1⟩ := index_facts t
  funext a
  apply Fin.ext
  match a with
  | ⟨0, _⟩ => show win0_6.index t (0 : Fin 2) * 2000 + 1 * p.val = t.val * 2000 + p.val; rw [e0]; omega
  | ⟨1, _⟩ => show win0_6.index t (1 : Fin 2) * 256 + 1 * q.val = q.val; rw [e1]; omega

/-! ## What a point writes back, the cover, the array -/

/-- What point `t` writes back is block `t` of the layer function of the arrays the region finds. -/
theorem flushed (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero zero2]
  simp only [View.ld_unit_zero (S := S2000x1) zero2, View.ld_unit_zero (S := S2000x128) zero2, View.ld_unit_zero (S := S128x256) zero2,
    View.ld_unit_zero (S := S256) zero1]
  funext j
  obtain ⟨p, q, rfl⟩ : ∃ (p : Fin 2000) (q : Fin 256), j = ix2 p q := ⟨j 0, j 1, eq_ix2 j⟩
  rw [View.read_apply, out_at t p q]
  refine (Cert.KernelIdeal.Body0.stored_at (iblk0 V c 2 t) (iblk0 V c 1 t) (iblk0 V c 0 t) (iblk0 V c 3 t) (iblk0 V c 4 t) (iblk0 V c 5 t) p q).trans ?_
  simp only [own_at, nbr_at, deg_at, ws_at, wn_at, bias_at]
  rfl

/-- An index of the array is in point `t`'s block iff each coordinate is in the block's range on its axis. -/
theorem mem_block (t : Fin cfg0.N) (i : S100000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v10).slice (win0_6.rect t)).set ↔ _
  rw [View.set_slice_whole, Rect.mem_set_unit]
  exact Iff.rfl

/-- The 50 row blocks tile the 100000 rows: row `r` is in the block of point `r / 2000`. -/
theorem covered (i : S100000x256.Idx) : ∃ t : Fin cfg0.N, (cfg0.win 6).flush t = true ∧ i ∈ ((cfg0.win 6).blk t).view.set := by
  have hi0 : (i 0).val < 100000 := (i 0).isLt
  have hi1 : (i 1).val < 256 := (i 1).isLt
  have hN : cfg0.N = 50 := N_0
  let t : Fin cfg0.N := ⟨(i 0).val / 2000, by rw [hN]; omega⟩
  obtain ⟨-, -, -, -, -, -, -, -, -, -, -, e0, e1⟩ := index_facts t
  refine ⟨t, flush0_6 t, ?_⟩
  rw [mem_block]
  have ht : t.val = (i 0).val / 2000 := rfl
  intro a
  match a with
  | ⟨0, _⟩ => show win0_6.index t (0 : Fin 2) * 2000 ≤ (i 0).val ∧ (i 0).val < win0_6.index t (0 : Fin 2) * 2000 + 2000; rw [e0, ht]; omega
  | ⟨1, _⟩ => show win0_6.index t (1 : Fin 2) * 256 ≤ (i 1).val ∧ (i 1).val < win0_6.index t (1 : Fin 2) * 256 + 256; rw [e1]; omega

/-- The output array after the region: the layer function of the six arrays the region finds. -/
theorem array (c : Dev nD) : (dat0 V c).arrAt 6 cfg0.N = result V c :=
  (dat0 V c).arrAt_eq_of_cover 6 (result V c) (fun t _ => flushed V c t) covered

end Cert.KernelIdeal.Array0

end
-- ==== Proof.KerBody1.lean ====
/-
  The second layer's kernel body, read at one entry of its output block.
  The body holds a block of 2000 destination rows: their own features (2000 x 256), the summed neighbour
  features (2000 x 256) and the in-degree column (2000 x 1), beside the whole of both weight matrices
  (256 x 256) and the bias (256).  On the extended reals the two changes of float format are the identity and a
  matrix product into a zero accumulator is the plain sum over the contracted axis, so entry (p, q) of what
  the body stores is
      (Σ_k own[p,k]·Ws[k,q] + Σ_k (nbr[p,k] / max(deg[p,0], 1))·Wn[k,q]) + b[q],
  finished as the layer finishes it (Spec): the layer's entry at the block's rows.
-/
import proofs.«401218_j13065290515269_1_alg».proof.Proof.Gen.KernelIdeal.Skeleton
import proofs.«401218_j13065290515269_1_alg».proof.Proof.Spec
import proofs.«401218_j13065290515269_1_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body1

open Cert.KernelIdeal Cert.KernelIdeal.Gen Idealize.ShloMosaic Idealize.ShloMosaic.TcCoe
open Idealize.ShloMosaic.ValueIdx Idealize.ShloMosaic.Pipeline

/-! ## The matrix product of a 2000 x 256 block with a 256 x 256 matrix, at an entry -/

theorem lhs_axis0 (i : S2000x256.Idx) (r : dot_S2000x256_S256x256_S2000x256_1_0_0_1_n_n.contr.Idx) :
    (dot_S2000x256_S256x256_S2000x256_1_0_0_1_n_n.lhsIdx i r 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_axis1 (i : S2000x256.Idx) (r : dot_S2000x256_S256x256_S2000x256_1_0_0_1_n_n.contr.Idx) :
    (dot_S2000x256_S256x256_S2000x256_1_0_0_1_n_n.lhsIdx i r 1).val = (r ⟨0, by decide⟩).val :=
  dot_S2000x256_S256x256_S2000x256_1_0_0_1_n_n.lhsIdx_val_of_single rfl i r
theorem rhs_axis0 (i : S2000x256.Idx) (r : dot_S2000x256_S256x256_S2000x256_1_0_0_1_n_n.contr.Idx) :
    (dot_S2000x256_S256x256_S2000x256_1_0_0_1_n_n.rhsIdx i r 0).val = (r ⟨0, by decide⟩).val :=
  dot_S2000x256_S256x256_S2000x256_1_0_0_1_n_n.rhsIdx_val_of_single rfl i r
theorem rhs_axis1 (i : S2000x256.Idx) (r : dot_S2000x256_S256x256_S2000x256_1_0_0_1_n_n.contr.Idx) :
    (dot_S2000x256_S256x256_S2000x256_1_0_0_1_n_n.rhsIdx i r 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Row `p` of the left factor against column `q` of the right one. -/
theorem product_at (lhs : FVec Ideal S2000x256 .bf16) (rhs : FVec Ideal S256x256 .bf16) (p : Fin 2000) (q : Fin 256) :
    matmul dot_S2000x256_S256x256_S2000x256_1_0_0_1_n_n none lhs rhs (constant S2000x256 .f32 0x00000000#32) (ix2 p q)
      = ∑ k : Fin 256, lhs (ix2 p k) * rhs (ix2 k q) := by
  show FloatOps.matmul dot_S2000x256_S256x256_S2000x256_1_0_0_1_n_n none lhs rhs (constant S2000x256 .f32 0x00000000#32) (ix2 p q) = _
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The body's stored value at entry (p, q) -/

/-- Entry `(p, q)` of the stored block is the layer's entry at the block's own rows. -/
theorem stored_at (deg : Vec Ideal S2000x1 .f32) (nbr own : Vec Ideal S2000x256 .f32) (Ws Wn : Vec Ideal S256x256 .f32)
    (b : Vec Ideal S256 .f32) (p : Fin 2000) (q : Fin 256) :
    k1_pay1 (F := Ideal) deg nbr own Ws Wn b (ix2 p q) =
      Cert.Sage.clamp (Cert.Sage.entry (fun k => own (ix2 p k)) (fun k => nbr (ix2 p k)) (deg (ix2 p (0 : Fin 1)))
        (fun k => Ws (ix2 k q)) (fun k => Wn (ix2 k q)) (b (ix1 q))) := by
  unfold k1_pay1
  simp only [maximumf_apply, addf_apply, broadcast_apply, product_at, truncf_apply, divf_apply, shapeCast_self,
    Cert.LibColumnBroadcast.broadcastTo_a1_ab_apply, broadcastTo_1b_ab_apply, shapeCast_a_1a_apply]
  rfl

end Cert.KernelIdeal.Body1

end
-- ==== Proof.KerArray1.lean ====
/-
  The second kernel region's output array, as one function of the six arrays the region finds.
  The grid has 10 points; point `t` holds rows 2000·t … 2000·t + 1999 of the three row-blocked inputs (own
  features, summed neighbour features, in-degree column) and of the output, and the whole of both weight matrices
  and the bias.  What point `t` writes back is therefore rows 2000·t … of the layer function (Spec) of the whole
  input arrays, and the 10 row blocks tile the 20000 rows: the output array ends holding that function.
-/
import proofs.«401218_j13065290515269_1_alg».proof.Proof.Gen.KernelIdeal.Frame
import proofs.«401218_j13065290515269_1_alg».proof.Proof.KerBody1

set_option maxRecDepth 16384

noncomputable section

open scoped BigOperators

namespace Cert.KernelIdeal.Array1

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the 10 points: the row-blocked windows and the output sit at block row `t`,
    block column 0; the weights and the bias at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- Row `p` of point `t`'s block is row 2000·t + p of the array. -/
theorem row_lt (t : Fin cfg1.N) (p : Fin 2000) : t.val * 2000 + p.val < 20000 := by
  have h : t.val < cfg1.N := t.isLt
  have hN : cfg1.N = 10 := N_1
  have hp : p.val < 2000 := p.isLt
  omega

/-- The layer function of the six arrays the region finds. -/
abbrev result (c : Dev nD) : S20000x256.Idx → Elt Ideal .f32 :=
  Cert.Sage.layer1 (V c main_v11 : S20000x256.Idx → Elt Ideal .f32) (V c main_v15 : S20000x256.Idx → Elt Ideal .f32)
    (Cert.LibColumnBroadcast.column (V c main_v20 : S20000x1.Idx → Elt Ideal .f32))
    (V c main_arg10 : S256x256.Idx → Elt Ideal .f32) (V c main_arg11 : S256x256.Idx → Elt Ideal .f32) (V c main_arg12 : S256.Idx → Elt Ideal .f32)

/-! ## Each input block, read at an entry, is the array at the block's place -/

theorem own_at (c : Dev nD) (t : Fin cfg1.N) (p : Fin 2000) (k : Fin 256) :
    (iblk1 V c 0 t : Vec Ideal S2000x256 .f32) (ix2 p k)
      = (V c main_v11 : S20000x256.Idx → Elt Ideal .f32) (ix2 (⟨t.val * 2000 + p.val, row_lt t p⟩ : Fin 20000) k) := by
  obtain ⟨e0, e1, -⟩ := index_facts t
  unfold iblk1
  rw [View.read_apply]
  show V c main_v11 _ = V c main_v11 _
  congr 1
  funext a
  apply Fin.ext
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

theorem nbr_at (c : Dev nD) (t : Fin cfg1.N) (p : Fin 2000) (k : Fin 256) :
    (iblk1 V c 1 t : Vec Ideal S2000x256 .f32) (ix2 p k)
      = (V c main_v15 : S20000x256.Idx → Elt Ideal .f32) (ix2 (⟨t.val * 2000 + p.val, row_lt t p⟩ : Fin 20000) k) := by
  obtain ⟨-, -, e0, e1, -⟩ := index_facts t
  unfold iblk1
  rw [View.read_apply]
  show V c main_v15 _ = V c main_v15 _
  congr 1
  funext a
  apply Fin.ext
  match a with
  | ⟨0, _⟩ => show win1_1.index t (0 : Fin 2) * 2000 + 1 * p.val = t.val * 2000 + p.val; rw [e0]; omega
  | ⟨1, _⟩ => show win1_1.index t (1 : Fin 2) * 256 + 1 * k.val = k.val; rw [e1]; omega

theorem deg_at (c : Dev nD) (t : Fin cfg1.N) (p : Fin 2000) :
    (iblk1 V c 2 t : Vec Ideal S2000x1 .f32) (ix2 p (0 : Fin 1))
      = (V c main_v20 : S20000x1.Idx → Elt Ideal .f32) (ix2 (⟨t.val * 2000 + p.val, row_lt t p⟩ : Fin 20000) (0 : Fin 1)) := by
  obtain ⟨-, -, -, -, e0, e1, -⟩ := index_facts t
  unfold iblk1
  rw [View.read_apply]
  show V c main_v20 _ = V c main_v20 _
  congr 1
  funext a
  apply Fin.ext
  match a with
  | ⟨0, _⟩ => show win1_2.index t (0 : Fin 2) * 2000 + 1 * p.val = t.val * 2000 + p.val; rw [e0]; omega
  | ⟨1, _⟩ => show win1_2.index t (1 : Fin 2) * 1 + 1 * (0 : Fin 1).val = (0 : Fin 1).val; rw [e1]; rfl

theorem ws_at (c : Dev nD) (t : Fin cfg1.N) (k : Fin 256) (q : Fin 256) :
    (iblk1 V c 3 t : Vec Ideal S256x256 .f32) (ix2 k q) = (V c main_arg10 : S256x256.Idx → Elt Ideal .f32) (ix2 k q) := by
  obtain ⟨-, -, -, -, -, -, e0, e1, -⟩ := index_facts t
  unfold iblk1
  rw [View.read_apply]
  show V c main_arg10 _ = V c main_arg10 _
  congr 1
  funext a
  apply Fin.ext
  match a with
  | ⟨0, _⟩ => show win1_3.index t (0 : Fin 2) * 256 + 1 * k.val = k.val; rw [e0]; omega
  | ⟨1, _⟩ => show win1_3.index t (1 : Fin 2) * 256 + 1 * q.val = q.val; rw [e1]; omega

theorem wn_at (c : Dev nD) (t : Fin cfg1.N) (k : Fin 256) (q : Fin 256) :
    (iblk1 V c 4 t : Vec Ideal S256x256 .f32) (ix2 k q) = (V c main_arg11 : S256x256.Idx → Elt Ideal .f32) (ix2 k q) := by
  obtain ⟨-, -, -, -, -, -, -, -, e0, e1, -⟩ := index_facts t
  unfold iblk1
  rw [View.read_apply]
  show V c main_arg11 _ = V c main_arg11 _
  congr 1
  funext a
  apply Fin.ext
  match a with
  | ⟨0, _⟩ => show win1_4.index t (0 : Fin 2) * 256 + 1 * k.val = k.val; rw [e0]; omega
  | ⟨1, _⟩ => show win1_4.index t (1 : Fin 2) * 256 + 1 * q.val = q.val; rw [e1]; omega

theorem bias_at (c : Dev nD) (t : Fin cfg1.N) (q : Fin 256) :
    (iblk1 V c 5 t : Vec Ideal S256 .f32) (ix1 q) = (V c main_arg12 : S256.Idx → Elt Ideal .f32) (ix1 q) := by
  obtain ⟨-, -, -, -, -, -, -, -, -, -, e0, -⟩ := index_facts t
  unfold iblk1
  rw [View.read_apply]
  show V c main_arg12 _ = V c main_arg12 _
  congr 1
  funext a
  apply Fin.ext
  match a with
  | ⟨0, _⟩ => show win1_5.index t (0 : Fin 1) * 256 + 1 * q.val = q.val; rw [e0]; omega

/-- Entry `(p, q)` of the output's block at point `t` sits at row 2000·t + p, column q of the array. -/
theorem out_at (t : Fin cfg1.N) (p : Fin 2000) (q : Fin 256) :
    (((cfg1.win 6).blk t).view.emb (ix2 p q) : S20000x256.Idx) = ix2 (⟨t.val * 2000 + p.val, row_lt t p⟩ : Fin 20000) q := by
  obtain ⟨-, -, -, -, -, -, -, -, -, -, -, e0, e1⟩ := index_facts t
  funext a
  apply Fin.ext
  match a with
  | ⟨0, _⟩ => show win1_6.index t (0 : Fin 2) * 2000 + 1 * p.val = t.val * 2000 + p.val; rw [e0]; omega
  | ⟨1, _⟩ => show win1_6.index t (1 : Fin 2) * 256 + 1 * q.val = q.val; rw [e1]; omega

/-! ## What a point writes back, the cover, the array -/

/-- What point `t` writes back is block `t` of the layer function of the arrays the region finds. -/
theorem flushed (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero zero2]
  simp only [View.ld_unit_zero (S := S2000x1) zero2, View.ld_unit_zero (S := S2000x256) zero2, View.ld_unit_zero (S := S256x256) zero2,
    View.ld_unit_zero (S := S256) zero1]
  funext j
  obtain ⟨p, q, rfl⟩ : ∃ (p : Fin 2000) (q : Fin 256), j = ix2 p q := ⟨j 0, j 1, eq_ix2 j⟩
  rw [View.read_apply, out_at t p q]
  refine (Cert.KernelIdeal.Body1.stored_at (iblk1 V c 2 t) (iblk1 V c 1 t) (iblk1 V c 0 t) (iblk1 V c 3 t) (iblk1 V c 4 t) (iblk1 V c 5 t) p q).trans ?_
  simp only [own_at, nbr_at, deg_at, ws_at, wn_at, bias_at]
  rfl

/-- An index of the array is in point `t`'s block iff each coordinate is in the block's range on its axis. -/
theorem mem_block (t : Fin cfg1.N) (i : S20000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v21).slice (win1_6.rect t)).set ↔ _
  rw [View.set_slice_whole, Rect.mem_set_unit]
  exact Iff.rfl

/-- The 10 row blocks tile the 20000 rows: row `r` is in the block of point `r / 2000`. -/
theorem covered (i : S20000x256.Idx) : ∃ t : Fin cfg1.N, (cfg1.win 6).flush t = true ∧ i ∈ ((cfg1.win 6).blk t).view.set := by
  have hi0 : (i 0).val < 20000 := (i 0).isLt
  have hi1 : (i 1).val < 256 := (i 1).isLt
  have hN : cfg1.N = 10 := N_1
  let t : Fin cfg1.N := ⟨(i 0).val / 2000, by rw [hN]; omega⟩
  obtain ⟨-, -, -, -, -, -, -, -, -, -, -, e0, e1⟩ := index_facts t
  refine ⟨t, flush1_6 t, ?_⟩
  rw [mem_block]
  have ht : t.val = (i 0).val / 2000 := rfl
  intro a
  match a with
  | ⟨0, _⟩ => show win1_6.index t (0 : Fin 2) * 2000 ≤ (i 0).val ∧ (i 0).val < win1_6.index t (0 : Fin 2) * 2000 + 2000; rw [e0, ht]; omega
  | ⟨1, _⟩ => show win1_6.index t (1 : Fin 2) * 256 ≤ (i 1).val ∧ (i 1).val < win1_6.index t (1 : Fin 2) * 256 + 256; rw [e1]; omega

/-- The output array after the region: the layer function of the six arrays the region finds. -/
theorem array (c : Dev nD) : (dat1 V c).arrAt 6 cfg1.N = result V c :=
  (dat1 V c).arrAt_eq_of_cover 6 (result V c) (fun t _ => flushed V c t) covered

end Cert.KernelIdeal.Array1

end
-- ==== Proof.KerBody2.lean ====
/-
  The output layer's kernel body, read at one entry of its output block.
  The body holds a block of 512 destination rows: their own features (512 x 256), the summed neighbour
  features (512 x 256) and the in-degree column (512 x 1), beside the whole of both weight matrices
  (256 x 47) and the bias (47).  On the extended reals the two changes of float format are the identity and a
  matrix product into a zero accumulator is the plain sum over the contracted axis, so entry (p, q) of what
  the body stores is
      (Σ_k own[p,k]·Ws[k,q] + Σ_k (nbr[p,k] / max(deg[p,0], 1))·Wn[k,q]) + b[q],
  finished as the layer finishes it (Spec): the layer's entry at the block's rows.
-/
import proofs.«401218_j13065290515269_1_alg».proof.Proof.Gen.KernelIdeal.Skeleton
import proofs.«401218_j13065290515269_1_alg».proof.Proof.Spec
import proofs.«401218_j13065290515269_1_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body2

open Cert.KernelIdeal Cert.KernelIdeal.Gen Idealize.ShloMosaic Idealize.ShloMosaic.TcCoe
open Idealize.ShloMosaic.ValueIdx Idealize.ShloMosaic.Pipeline

/-! ## The matrix product of a 512 x 256 block with a 256 x 47 matrix, at an entry -/

theorem lhs_axis0 (i : S512x47.Idx) (r : dot_S512x256_S256x47_S512x47_1_0_0_1_n_n.contr.Idx) :
    (dot_S512x256_S256x47_S512x47_1_0_0_1_n_n.lhsIdx i r 0).val = (i 0).val := by
  unfold DotDims.lhsIdx
  rw [dif_neg (show ¬(0 : Fin S512x256.rank) ∈ dot_S512x256_S256x47_S512x47_1_0_0_1_n_n.lhsBatch by decide), dif_pos (show (0 : Fin S512x256.rank) ∈ dot_S512x256_S256x47_S512x47_1_0_0_1_n_n.lhsNonContracting by decide)]
  rfl
theorem lhs_axis1 (i : S512x47.Idx) (r : dot_S512x256_S256x47_S512x47_1_0_0_1_n_n.contr.Idx) :
    (dot_S512x256_S256x47_S512x47_1_0_0_1_n_n.lhsIdx i r 1).val = (r ⟨0, by decide⟩).val :=
  dot_S512x256_S256x47_S512x47_1_0_0_1_n_n.lhsIdx_val_of_single rfl i r
theorem rhs_axis0 (i : S512x47.Idx) (r : dot_S512x256_S256x47_S512x47_1_0_0_1_n_n.contr.Idx) :
    (dot_S512x256_S256x47_S512x47_1_0_0_1_n_n.rhsIdx i r 0).val = (r ⟨0, by decide⟩).val :=
  dot_S512x256_S256x47_S512x47_1_0_0_1_n_n.rhsIdx_val_of_single rfl i r
theorem rhs_axis1 (i : S512x47.Idx) (r : dot_S512x256_S256x47_S512x47_1_0_0_1_n_n.contr.Idx) :
    (dot_S512x256_S256x47_S512x47_1_0_0_1_n_n.rhsIdx i r 1).val = (i 1).val := by
  unfold DotDims.rhsIdx
  rw [dif_neg (show ¬(1 : Fin S256x47.rank) ∈ dot_S512x256_S256x47_S512x47_1_0_0_1_n_n.rhsBatch by decide), dif_pos (show (1 : Fin S256x47.rank) ∈ dot_S512x256_S256x47_S512x47_1_0_0_1_n_n.rhsNonContracting by decide)]
  rfl

/-- Row `p` of the left factor against column `q` of the right one. -/
theorem product_at (lhs : FVec Ideal S512x256 .bf16) (rhs : FVec Ideal S256x47 .bf16) (p : Fin 512) (q : Fin 47) :
    matmul dot_S512x256_S256x47_S512x47_1_0_0_1_n_n none lhs rhs (constant S512x47 .f32 0x00000000#32) (ix2 p q)
      = ∑ k : Fin 256, lhs (ix2 p k) * rhs (ix2 k q) := by
  show FloatOps.matmul dot_S512x256_S256x47_S512x47_1_0_0_1_n_n none lhs rhs (constant S512x47 .f32 0x00000000#32) (ix2 p q) = _
  rw [Ideal.matmul_constant_zero_apply, ← Equiv.sum_comp (ValueIdx.contrEquiv1 dot_S512x256_S256x47_S512x47_1_0_0_1_n_n 256 rfl rfl).symm]
  refine Finset.sum_congr rfl fun k _ => ?_
  have hk := ValueIdx.contrEquiv1_symm_val dot_S512x256_S256x47_S512x47_1_0_0_1_n_n 256 rfl rfl k
  have el : dot_S512x256_S256x47_S512x47_1_0_0_1_n_n.lhsIdx (ix2 p q) ((ValueIdx.contrEquiv1 dot_S512x256_S256x47_S512x47_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S512x256_S256x47_S512x47_1_0_0_1_n_n.rhsIdx (ix2 p q) ((ValueIdx.contrEquiv1 dot_S512x256_S256x47_S512x47_1_0_0_1_n_n 256 rfl rfl).symm k) = ix2 k q := funext fun a => Fin.ext (by
    match a with
    | ⟨0, _⟩ => exact (rhs_axis0 _ _).trans hk
    | ⟨1, _⟩ => exact rhs_axis1 _ _)
  rw [el, er]

/-! ## The body's stored value at entry (p, q) -/

/-- Entry `(p, q)` of the stored block is the layer's entry at the block's own rows. -/
theorem stored_at (deg : Vec Ideal S512x1 .f32) (nbr own : Vec Ideal S512x256 .f32) (Ws Wn : Vec Ideal S256x47 .f32)
    (b : Vec Ideal S47 .f32) (p : Fin 512) (q : Fin 47) :
    k2_pay1 (F := Ideal) deg nbr own Ws Wn b (ix2 p q) =
      (Cert.Sage.entry (fun k => own (ix2 p k)) (fun k => nbr (ix2 p k)) (deg (ix2 p (0 : Fin 1)))
        (fun k => Ws (ix2 k q)) (fun k => Wn (ix2 k q)) (b (ix1 q))) := by
  unfold k2_pay1
  simp only [maximumf_apply, addf_apply, broadcast_apply, product_at, truncf_apply, divf_apply, shapeCast_self,
    Cert.LibColumnBroadcast.broadcastTo_a1_ab_apply, broadcastTo_1b_ab_apply, shapeCast_a_1a_apply]
  rfl

end Cert.KernelIdeal.Body2

end
-- ==== Proof.KerArray2.lean ====
/-
  The third kernel region's output array, as one function of the six arrays the region finds.
  The grid has 8 points; point `t` holds rows 512·t … 512·t + 511 of the three row-blocked inputs (own
  features, summed neighbour features, in-degree column) and of the output, and the whole of both weight matrices
  and the bias.  What point `t` writes back is therefore rows 512·t … of the layer function (Spec) of the whole
  input arrays, and the 8 row blocks tile the 4096 rows: the output array ends holding that function.
-/
import proofs.«401218_j13065290515269_1_alg».proof.Proof.Gen.KernelIdeal.Frame
import proofs.«401218_j13065290515269_1_alg».proof.Proof.KerBody2

set_option maxRecDepth 16384

noncomputable section

open scoped BigOperators

namespace Cert.KernelIdeal.Array2

open Cert.KernelIdeal Cert.KernelIdeal.Gen Idealize.ShloMosaic Idealize.ShloMosaic.TcCoe Idealize.SL.Sem
open Idealize.ShloMosaic.ValueIdx Idealize.ShloMosaic.Pipeline

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The printed index maps over the 8 points: the row-blocked windows and the output sit at block row `t`,
    block column 0; the weights and the bias at block 0. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- Row `p` of point `t`'s block is row 512·t + p of the array. -/
theorem row_lt (t : Fin cfg2.N) (p : Fin 512) : t.val * 512 + p.val < 4096 := by
  have h : t.val < cfg2.N := t.isLt
  have hN : cfg2.N = 8 := N_2
  have hp : p.val < 512 := p.isLt
  omega

/-- The layer function of the six arrays the region finds. -/
abbrev result (c : Dev nD) : S4096x47.Idx → Elt Ideal .f32 :=
  Cert.Sage.layer2 (V c main_v22 : S4096x256.Idx → Elt Ideal .f32) (V c main_v26 : S4096x256.Idx → Elt Ideal .f32)
    (Cert.LibColumnBroadcast.column (V c main_v31 : S4096x1.Idx → Elt Ideal .f32))
    (V c main_arg13 : S256x47.Idx → Elt Ideal .f32) (V c main_arg14 : S256x47.Idx → Elt Ideal .f32) (V c main_arg15 : S47.Idx → Elt Ideal .f32)

/-! ## Each input block, read at an entry, is the array at the block's place -/

theorem own_at (c : Dev nD) (t : Fin cfg2.N) (p : Fin 512) (k : Fin 256) :
    (iblk2 V c 0 t : Vec Ideal S512x256 .f32) (ix2 p k)
      = (V c main_v22 : S4096x256.Idx → Elt Ideal .f32) (ix2 (⟨t.val * 512 + p.val, row_lt t p⟩ : Fin 4096) k) := by
  obtain ⟨e0, e1, -⟩ := index_facts t
  unfold iblk2
  rw [View.read_apply]
  show V c main_v22 _ = V c main_v22 _
  congr 1
  funext a
  apply Fin.ext
  match a with
  | ⟨0, _⟩ => show win2_0.index t (0 : Fin 2) * 512 + 1 * p.val = t.val * 512 + p.val; rw [e0]; omega
  | ⟨1, _⟩ => show win2_0.index t (1 : Fin 2) * 256 + 1 * k.val = k.val; rw [e1]; omega

theorem nbr_at (c : Dev nD) (t : Fin cfg2.N) (p : Fin 512) (k : Fin 256) :
    (iblk2 V c 1 t : Vec Ideal S512x256 .f32) (ix2 p k)
      = (V c main_v26 : S4096x256.Idx → Elt Ideal .f32) (ix2 (⟨t.val * 512 + p.val, row_lt t p⟩ : Fin 4096) k) := by
  obtain ⟨-, -, e0, e1, -⟩ := index_facts t
  unfold iblk2
  rw [View.read_apply]
  show V c main_v26 _ = V c main_v26 _
  congr 1
  funext a
  apply Fin.ext
  match a with
  | ⟨0, _⟩ => show win2_1.index t (0 : Fin 2) * 512 + 1 * p.val = t.val * 512 + p.val; rw [e0]; omega
  | ⟨1, _⟩ => show win2_1.index t (1 : Fin 2) * 256 + 1 * k.val = k.val; rw [e1]; omega

theorem deg_at (c : Dev nD) (t : Fin cfg2.N) (p : Fin 512) :
    (iblk2 V c 2 t : Vec Ideal S512x1 .f32) (ix2 p (0 : Fin 1))
      = (V c main_v31 : S4096x1.Idx → Elt Ideal .f32) (ix2 (⟨t.val * 512 + p.val, row_lt t p⟩ : Fin 4096) (0 : Fin 1)) := by
  obtain ⟨-, -, -, -, e0, e1, -⟩ := index_facts t
  unfold iblk2
  rw [View.read_apply]
  show V c main_v31 _ = V c main_v31 _
  congr 1
  funext a
  apply Fin.ext
  match a with
  | ⟨0, _⟩ => show win2_2.index t (0 : Fin 2) * 512 + 1 * p.val = t.val * 512 + p.val; rw [e0]; omega
  | ⟨1, _⟩ => show win2_2.index t (1 : Fin 2) * 1 + 1 * (0 : Fin 1).val = (0 : Fin 1).val; rw [e1]; rfl

theorem ws_at (c : Dev nD) (t : Fin cfg2.N) (k : Fin 256) (q : Fin 47) :
    (iblk2 V c 3 t : Vec Ideal S256x47 .f32) (ix2 k q) = (V c main_arg13 : S256x47.Idx → Elt Ideal .f32) (ix2 k q) := by
  obtain ⟨-, -, -, -, -, -, e0, e1, -⟩ := index_facts t
  unfold iblk2
  rw [View.read_apply]
  show V c main_arg13 _ = V c main_arg13 _
  congr 1
  funext a
  apply Fin.ext
  match a with
  | ⟨0, _⟩ => show win2_3.index t (0 : Fin 2) * 256 + 1 * k.val = k.val; rw [e0]; omega
  | ⟨1, _⟩ => show win2_3.index t (1 : Fin 2) * 47 + 1 * q.val = q.val; rw [e1]; omega

theorem wn_at (c : Dev nD) (t : Fin cfg2.N) (k : Fin 256) (q : Fin 47) :
    (iblk2 V c 4 t : Vec Ideal S256x47 .f32) (ix2 k q) = (V c main_arg14 : S256x47.Idx → Elt Ideal .f32) (ix2 k q) := by
  obtain ⟨-, -, -, -, -, -, -, -, e0, e1, -⟩ := index_facts t
  unfold iblk2
  rw [View.read_apply]
  show V c main_arg14 _ = V c main_arg14 _
  congr 1
  funext a
  apply Fin.ext
  match a with
  | ⟨0, _⟩ => show win2_4.index t (0 : Fin 2) * 256 + 1 * k.val = k.val; rw [e0]; omega
  | ⟨1, _⟩ => show win2_4.index t (1 : Fin 2) * 47 + 1 * q.val = q.val; rw [e1]; omega

theorem bias_at (c : Dev nD) (t : Fin cfg2.N) (q : Fin 47) :
    (iblk2 V c 5 t : Vec Ideal S47 .f32) (ix1 q) = (V c main_arg15 : S47.Idx → Elt Ideal .f32) (ix1 q) := by
  obtain ⟨-, -, -, -, -, -, -, -, -, -, e0, -⟩ := index_facts t
  unfold iblk2
  rw [View.read_apply]
  show V c main_arg15 _ = V c main_arg15 _
  congr 1
  funext a
  apply Fin.ext
  match a with
  | ⟨0, _⟩ => show win2_5.index t (0 : Fin 1) * 47 + 1 * q.val = q.val; rw [e0]; omega

/-- Entry `(p, q)` of the output's block at point `t` sits at row 512·t + p, column q of the array. -/
theorem out_at (t : Fin cfg2.N) (p : Fin 512) (q : Fin 47) :
    (((cfg2.win 6).blk t).view.emb (ix2 p q) : S4096x47.Idx) = ix2 (⟨t.val * 512 + p.val, row_lt t p⟩ : Fin 4096) q := by
  obtain ⟨-, -, -, -, -, -, -, -, -, -, -, e0, e1⟩ := index_facts t
  funext a
  apply Fin.ext
  match a with
  | ⟨0, _⟩ => show win2_6.index t (0 : Fin 2) * 512 + 1 * p.val = t.val * 512 + p.val; rw [e0]; omega
  | ⟨1, _⟩ => show win2_6.index t (1 : Fin 2) * 47 + 1 * q.val = q.val; rw [e1]; omega

/-! ## What a point writes back, the cover, the array -/

/-- What point `t` writes back is block `t` of the layer function of the arrays the region finds. -/
theorem flushed (c : Dev nD) (t : Fin cfg2.N) :
    (dat2 V c).flushed 6 t = ((cfg2.win 6).blk t).view.read (Elt Ideal) (result V c) := by
  show (cfg2.win 6).cut (grid2.coords t) ((dat2 V c).after 6 t) = _
  rw [after2_6]
  unfold out2_6
  rw [View.canon_unit_zero zero2]
  simp only [View.ld_unit_zero (S := S512x1) zero2, View.ld_unit_zero (S := S512x256) zero2, View.ld_unit_zero (S := S256x47) zero2,
    View.ld_unit_zero (S := S47) zero1]
  funext j
  obtain ⟨p, q, rfl⟩ : ∃ (p : Fin 512) (q : Fin 47), j = ix2 p q := ⟨j 0, j 1, eq_ix2 j⟩
  rw [View.read_apply, out_at t p q]
  refine (Cert.KernelIdeal.Body2.stored_at (iblk2 V c 2 t) (iblk2 V c 1 t) (iblk2 V c 0 t) (iblk2 V c 3 t) (iblk2 V c 4 t) (iblk2 V c 5 t) p q).trans ?_
  simp only [own_at, nbr_at, deg_at, ws_at, wn_at, bias_at]
  rfl

/-- An index of the array is in point `t`'s block iff each coordinate is in the block's range on its axis. -/
theorem mem_block (t : Fin cfg2.N) (i : S4096x47.Idx) :
    i ∈ ((cfg2.win 6).blk t).view.set ↔ ∀ a : Fin 2, win2_6.index t a * S512x47.size a ≤ (i a).val ∧ (i a).val < win2_6.index t a * S512x47.size a + S512x47.size a := by
  show i ∈ ((View.whole main_v32).slice (win2_6.rect t)).set ↔ _
  rw [View.set_slice_whole, Rect.mem_set_unit]
  exact Iff.rfl

/-- The 8 row blocks tile the 4096 rows: row `r` is in the block of point `r / 512`. -/
theorem covered (i : S4096x47.Idx) : ∃ t : Fin cfg2.N, (cfg2.win 6).flush t = true ∧ i ∈ ((cfg2.win 6).blk t).view.set := by
  have hi0 : (i 0).val < 4096 := (i 0).isLt
  have hi1 : (i 1).val < 47 := (i 1).isLt
  have hN : cfg2.N = 8 := N_2
  let t : Fin cfg2.N := ⟨(i 0).val / 512, by rw [hN]; omega⟩
  obtain ⟨-, -, -, -, -, -, -, -, -, -, -, e0, e1⟩ := index_facts t
  refine ⟨t, flush2_6 t, ?_⟩
  rw [mem_block]
  have ht : t.val = (i 0).val / 512 := rfl
  intro a
  match a with
  | ⟨0, _⟩ => show win2_6.index t (0 : Fin 2) * 512 ≤ (i 0).val ∧ (i 0).val < win2_6.index t (0 : Fin 2) * 512 + 512; rw [e0, ht]; omega
  | ⟨1, _⟩ => show win2_6.index t (1 : Fin 2) * 47 ≤ (i 1).val ∧ (i 1).val < win2_6.index t (1 : Fin 2) * 47 + 47; rw [e1]; omega

/-- The output array after the region: the layer function of the six arrays the region finds. -/
theorem array (c : Dev nD) : (dat2 V c).arrAt 6 cfg2.N = result V c :=
  (dat2 V c).arrAt_eq_of_cover 6 (result V c) (fun t _ => flushed V c t) covered

end Cert.KernelIdeal.Array2

end
-- ==== Proof.LibMaskedTake.lean ====
/-
  A gather whose result is masked by an in-range test of its indices, when every index is in range.
  `jnp.take` in its default mode wraps a negative index by the table's length, gathers, and then replaces
  the rows whose wrapped index falls outside [0, n - 1] by a fill value: the mask is, row by row, an "and"
  over the index's one component of the two signed comparisons.  When every index is in [0, n) to begin with,
  no index is wrapped, every comparison holds, the mask is all ones and the selection is the gathered array.
  The lemmas here are the general steps: a reduction by "and" of ones from 1 is 1; a selection under an all-ones
  mask is its first branch; a signed word in [0, n) is not negative and is at most n - 1.
-/
import Idealize.ShloMosaic.Lib.ReduceAll
import Idealize.ShloMosaic.Lib.ValueIdx
import Idealize.ShloMosaic.Lib.StableHlo.Predicate

namespace Cert.LibMaskedTake

open Idealize.ShloMosaic

/-- A left fold by "and" from 1 over entries that are all 1 is 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_ones f hf l _ (by rw [h, hf a]; decide)

/-- A reduction by "and", started at 1, of an operand that is 1 everywhere is 1 at every result index. -/
theorem reduce_andi_ones {s t u : Shape} {axes : List (Fin s.rank)} (x : s.Idx → BitVec 1) (init : u.Idx → BitVec 1)
    (h : s.ReducesTo axes t) (hu : 0 < u.numel) (hinit : ∀ i, init i = 1#1) (hx : ∀ i, x i = 1#1) (j : t.Idx) :
    Host.reduce IntOp.andi x init h hu j = 1#1 := by
  rw [Host.reduce_eq_foldl]
  exact foldl_andi_ones x hx _ _ (hinit _)

/-- A selection under a mask that is 1 everywhere is its first branch. -/
theorem select_ones {α : Type} {s : Shape} (c : IVec s 1) (a b : s.Idx → α) (hc : ∀ i, c i = 1#1) : select c a b = a :=
  funext fun i => by rw [ValueIdx.select_apply, hc i]; exact ValueIdx.select_one _ _

/-- A signed word that is at least 0 is not below 0. -/
theorem not_neg_of_nonneg (w : BitVec 32) (h0 : IntOp.cmpi .sge w 0#32 = 1#1) : IntOp.cmpi .slt w 0#32 = 0#1 := by
  unfold IntOp.cmpi at h0 ⊢
  rw [StableHlo.Predicate.ofBool_eq_one_iff] at h0
  simp only [BitVec.sle, BitVec.slt, decide_eq_true_eq] at h0 ⊢
  have hz : (0#32 : BitVec 32).toInt = 0 := by decide
  rw [hz] at h0
  have hn : ¬ (w.toInt < 0) := by omega
  simp [hn]

/-- A signed word below `n` is at most `n - 1`. -/
theorem le_pred_of_lt (w : BitVec 32) (n : Nat) (hn : 0 < n) (hn' : n < 2 ^ 31)
    (h1 : IntOp.cmpi .slt w (BitVec.ofNat 32 n) = 1#1) : IntOp.cmpi .sle w (BitVec.ofNat 32 (n - 1)) = 1#1 := by
  unfold IntOp.cmpi at h1 ⊢
  rw [StableHlo.Predicate.ofBool_eq_one_iff] at h1 ⊢
  simp only [BitVec.sle, BitVec.slt, decide_eq_true_eq] at h1 ⊢
  rw [StableHlo.Predicate.toInt_ofNat_small n hn'] at h1
  rw [StableHlo.Predicate.toInt_ofNat_small (n - 1) (by omega)]
  omega

/-- An index word that is not negative is left alone by the wrap of negative indices. -/
theorem wrap_of_nonneg (w a : BitVec 32) (h0 : IntOp.cmpi .sge w 0#32 = 1#1) :
    Scalar.select (IntOp.cmpi .slt w 0#32) a w = w := by
  rw [not_neg_of_nonneg w h0]
  exact ValueIdx.select_zero _ _

/-- The in-range test of a masked take, reduced by "and" over the index's components, is 1 at every row when every
    index word is in [0, n): `lo` is the constant 0 and `hi` the constant n - 1. -/
theorem in_range_ones {sI sR u : Shape} {axes : List (Fin sI.rank)} (I lo hi : IVec sI 32) (init : IVec u 1)
    (h : sI.ReducesTo axes sR) (hu : 0 < u.numel) (n : Nat) (hn : 0 < n) (hn' : n < 2 ^ 31)
    (hinit : ∀ i, init i = 1#1) (hlo : ∀ k, lo k = 0#32) (hhi : ∀ k, hi k = BitVec.ofNat 32 (n - 1))
    (hI0 : ∀ k, IntOp.cmpi .sge (I k) 0#32 = 1#1) (hI1 : ∀ k, IntOp.cmpi .slt (I k) (BitVec.ofNat 32 n) = 1#1) (j : sR.Idx) :
    Host.reduce IntOp.andi (andi (cmpi .sge I lo) (cmpi .sle I hi)) init h hu j = 1#1 :=
  reduce_andi_ones _ _ h hu hinit (fun k => by
    show IntOp.andi (IntOp.cmpi .sge (I k) (lo k)) (IntOp.cmpi .sle (I k) (hi k)) = 1#1
    rw [hlo k, hhi k, hI0 k, le_pred_of_lt (I k) n hn hn' (hI1 k)]
    decide) j

end Cert.LibMaskedTake
-- ==== Proof.LibBufferCasts.lean ====
/-
  A host operation of an outlined function reads and writes its buffers through a transport along the buffer's
  type equation; sending contents to a buffer's type and back gives the contents.
-/
import Idealize.ShloMosaic.Lib.StableHlo.Run

namespace Cert.LibBufferCasts

open Idealize.ShloMosaic Idealize.ShloMosaic.StableHlo

/-- Contents sent to a buffer's type and back are the contents. -/
theorem ofBuf_toBuf {sig : RefSig} {Val : EltTy → Type} {T : BufTy} (x : TRef sig T) (v : T.Contents Val) :
    x.ofBuf (x.toBuf v) = v := by
  obtain ⟨r, rfl, _, _⟩ := x
  rfl

end Cert.LibBufferCasts
-- ==== Proof.KerEntry0.lean ====
/-
  What the first kernel region finds in its six arrays, in the reference's own terms.
  Before the region @main slices the first 100000 rows of the features, takes the rows the gather indices name,
  adds them into their destination rows, counts each destination's incoming edges, and recasts the counts as a
  column.  The reference does the same with a bare gather where the kernel's take masks its rows by an in-range
  test of the indices; under the precondition every index names a row of the table, the test holds at every row
  and the masked take is the bare gather.  So the region's six arrays are the reference's own stages: the slice,
  the summed neighbour features, the in-degrees (as a column), and the three parameter arrays as launched.
-/
import proofs.«401218_j13065290515269_1_alg».proof.Proof.Gen.KernelIdeal.Frame
import proofs.«401218_j13065290515269_1_alg».proof.Proof.Gen.ReferenceIdeal.Read
import proofs.«401218_j13065290515269_1_alg».proof.Proof.LibMaskedTake
import proofs.«401218_j13065290515269_1_alg».proof.Proof.LibColumnBroadcast
import proofs.«401218_j13065290515269_1_alg».proof.Proof.LibBufferCasts

set_option maxRecDepth 16384
set_option maxHeartbeats 4000000

noncomputable section

namespace Cert.KernelIdeal.Entry0

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The gather indices after the wrap of negative ones, as the column the gather reads. -/
abbrev wrapped (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 300000#32))) src)

/-- Every entry of the wrapped column is an entry of the index vector, when none is negative. -/
theorem wrapped_at (src : IVec S1000000 32) (hge : ∀ e, IntOp.cmpi .sge (src e) 0#32 = 1#1) (k : S1000000x1.Idx) :
    ∃ e, wrapped src k = src e :=
  ⟨_, Cert.LibMaskedTake.wrap_of_nonneg _ _ (hge _)⟩

/-- The take's row mask: row by row, the "and" over the index's one component of the two signed comparisons
    of the wrapped index with 0 and with 299999. -/
abbrev mask (src : IVec S1000000 32) : IVec S1000000x128 1 :=
  broadcastInDim S1000000x128 ![0] bcast_S1000000_S1000000x128_0
    (Host.reduce IntOp.andi
      (andi (cmpi .sge (wrapped src) (broadcastInDim S1000000x1 ![] bcast_S_S1000000x1 (constantI S_ 32 0#32)))
        (cmpi .sle (wrapped src) (broadcastInDim S1000000x1 ![0, 1] bcast_S1x1_S1000000x1_0_1
          (broadcastInDim S1x1 ![1] bcast_S1_S1x1_1 (constantI S1 32 299999#32)))))
      (constantI S_ 1 1#1) reducesTo_S1000000x1_S1000000_d1 h_S_)

/-- The take's row mask is 1 everywhere when every index is in [0, 300000). -/
theorem mask_ones (src : IVec S1000000 32) (hge : ∀ e, IntOp.cmpi .sge (src e) 0#32 = 1#1)
    (hlt : ∀ e, IntOp.cmpi .slt (src e) 300000#32 = 1#1) (i : S1000000x128.Idx) : mask src i = 1#1 := by
  have hR := Cert.LibMaskedTake.in_range_ones (wrapped src)
    (broadcastInDim S1000000x1 ![] bcast_S_S1000000x1 (constantI S_ 32 0#32))
    (broadcastInDim S1000000x1 ![0, 1] bcast_S1x1_S1000000x1_0_1 (broadcastInDim S1x1 ![1] bcast_S1_S1x1_1 (constantI S1 32 299999#32)))
    (constantI S_ 1 1#1) reducesTo_S1000000x1_S1000000_d1 h_S_ 300000 (by decide) (by decide)
    (fun _ => rfl) (fun _ => rfl) (fun _ => rfl)
    (fun k => by obtain ⟨e, he⟩ := wrapped_at src hge k; rw [he]; exact hge e)
    (fun k => by obtain ⟨e, he⟩ := wrapped_at src hge k; rw [he]; exact hlt e)
  exact hR _

/-! ## The six arrays -/

/-- The destination nodes' own features: the reference's slice. -/
theorem own (c : Dev nD) :
    V3 m ρ c main_v0 = Cert.ReferenceIdeal.Read.val_main_v0 (F := Ideal) (m ((c : Thread nD τ).loc main_arg0)) := by
  show StableHlo.after hostOps0_2 (StableHlo.after hostOps0_1 (StableHlo.after hostOps0 (W0 m ρ c))) (Proc.devRef .tc main_v0) = _
  after_results
  rfl

/-- What the take leaves: under the precondition on its indices, the bare gather of the wrapped indices. -/
theorem take_eq (c : Dev nD) (hge : ∀ e, IntOp.cmpi .sge (m ((c : Thread nD τ).loc main_arg1) e) 0#32 = 1#1)
    (hlt : ∀ e, IntOp.cmpi .slt (m ((c : Thread nD τ).loc main_arg1) e) 300000#32 = 1#1) :
    StableHlo.after hostOps0_1 (StableHlo.after hostOps0 (W0 m ρ c)) (Proc.devRef .tc main_v1)
      = Host.gather gather_S300000x128_S1000000x1_S1000000x128_1_0_n_n_0_1_1128 (m ((c : Thread nD τ).loc main_arg0))
          (wrapped (m ((c : Thread nD τ).loc main_arg1))) := by
  have e1 : (TRef.of main_arg1 : TRef sig ⟨S1000000, .i32⟩).ofBuf (W0 m ρ c (Proc.devRef .tc main_arg1)) = m ((c : Thread nD τ).loc main_arg1) := rfl
  have e0 : (TRef.of main_arg0 : TRef sig ⟨S300000x128, .f32⟩).ofBuf (W0 m ρ c (Proc.devRef .tc main_arg0)) = m ((c : Thread nD τ).loc main_arg0) := rfl
  after_results_simp
  simp only [Cert.LibBufferCasts.ofBuf_toBuf]
  rw [e1, e0, Cert.LibMaskedTake.select_ones _ _ _ (mask_ones (m ((c : Thread nD τ).loc main_arg1)) hge hlt)]
  rfl

/-- The scatter indices before the take's stretch and after it are the launch contents. -/
theorem dst_kept (c : Dev nD) :
    StableHlo.after hostOps0_1 (StableHlo.after hostOps0 (W0 m ρ c)) (Proc.devRef .tc main_arg2) = m ((c : Thread nD τ).loc main_arg2) := by
  after_results_simp

/-- The summed neighbour features: the reference's scatter-addition of its bare gather. -/
theorem nbr (c : Dev nD) (hge : ∀ e, IntOp.cmpi .sge (m ((c : Thread nD τ).loc main_arg1) e) 0#32 = 1#1)
    (hlt : ∀ e, IntOp.cmpi .slt (m ((c : Thread nD τ).loc main_arg1) e) 300000#32 = 1#1) :
    V3 m ρ c main_v4 = Cert.ReferenceIdeal.Read.val_main_v10 (F := Ideal) (m ((c : Thread nD τ).loc main_arg0))
      (m ((c : Thread nD τ).loc main_arg1)) (m ((c : Thread nD τ).loc main_arg2)) := by
  show StableHlo.after hostOps0_2 (StableHlo.after hostOps0_1 (StableHlo.after hostOps0 (W0 m ρ c))) (Proc.devRef .tc main_v4) = _
  have ht := take_eq m ρ c hge hlt
  have hd := dst_kept m ρ c
  generalize StableHlo.after hostOps0_1 (StableHlo.after hostOps0 (W0 m ρ c)) = X at ht hd ⊢
  after_results
  rw [ht, hd]
  rfl

/-- The in-degree column, read as a vector, is the reference's in-degrees. -/
theorem deg (c : Dev nD) :
    Cert.LibColumnBroadcast.column (V3 m ρ c main_v9 : S100000x1.Idx → Elt Ideal .f32)
      = Cert.ReferenceIdeal.Read.val_main_v14 (F := Ideal) (m ((c : Thread nD τ).loc main_arg2)) := by
  have h : V3 m ρ c main_v9 = shapeCast S100000x1 (Cert.ReferenceIdeal.Read.val_main_v14 (F := Ideal) (m ((c : Thread nD τ).loc main_arg2))) shapeCasts_S100000_S100000x1 := by
    show StableHlo.after hostOps0_2 (StableHlo.after hostOps0_1 (StableHlo.after hostOps0 (W0 m ρ c))) (Proc.devRef .tc main_v9) = _
    after_results
    rfl
  rw [h]
  exact Cert.LibColumnBroadcast.column_shapeCast _ _

/-- The three parameter arrays are as launched. -/
theorem ws (c : Dev nD) : V3 m ρ c main_arg7 = m ((c : Thread nD τ).loc main_arg7) := by
  show StableHlo.after hostOps0_2 (StableHlo.after hostOps0_1 (StableHlo.after hostOps0 (W0 m ρ c))) (Proc.devRef .tc main_arg7) = _
  after_results
theorem wn (c : Dev nD) : V3 m ρ c main_arg8 = m ((c : Thread nD τ).loc main_arg8) := by
  show StableHlo.after hostOps0_2 (StableHlo.after hostOps0_1 (StableHlo.after hostOps0 (W0 m ρ c))) (Proc.devRef .tc main_arg8) = _
  after_results
theorem bias (c : Dev nD) : V3 m ρ c main_arg9 = m ((c : Thread nD τ).loc main_arg9) := by
  show StableHlo.after hostOps0_2 (StableHlo.after hostOps0_1 (StableHlo.after hostOps0 (W0 m ρ c))) (Proc.devRef .tc main_arg9) = _
  after_results

end Cert.KernelIdeal.Entry0

end
-- ==== Proof.KerArgsKept.lean ====
/-
  The argument arrays at the two inner region boundaries are as launched.
  No host operation writes an argument and no kernel region's output is one, so what an argument's buffer holds when
  the second region is entered (after the first region's write-backs) and when the third is entered is what the launch
  memory held.
-/
import proofs.«401218_j13065290515269_1_alg».proof.Proof.Gen.KernelIdeal.Frame

set_option maxRecDepth 16384

noncomputable section

namespace Cert.KernelIdeal.ArgsKept

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## At the first region's exit -/

theorem exit0_arg3 (c : Dev nD) : W4 m ρ c (Proc.devRef .tc main_arg3) = m ((c : Thread nD τ).loc main_arg3) := by
  rw [W4_of_ne m ρ c main_arg3 (by decide)]
  show StableHlo.after hostOps0_2 (StableHlo.after hostOps0_1 (StableHlo.after hostOps0 (W0 m ρ c))) (Proc.devRef .tc main_arg3) = _
  after_results

theorem exit0_arg4 (c : Dev nD) : W4 m ρ c (Proc.devRef .tc main_arg4) = m ((c : Thread nD τ).loc main_arg4) := by
  rw [W4_of_ne m ρ c main_arg4 (by decide)]
  show StableHlo.after hostOps0_2 (StableHlo.after hostOps0_1 (StableHlo.after hostOps0 (W0 m ρ c))) (Proc.devRef .tc main_arg4) = _
  after_results

theorem exit0_arg5 (c : Dev nD) : W4 m ρ c (Proc.devRef .tc main_arg5) = m ((c : Thread nD τ).loc main_arg5) := by
  rw [W4_of_ne m ρ c main_arg5 (by decide)]
  show StableHlo.after hostOps0_2 (StableHlo.after hostOps0_1 (StableHlo.after hostOps0 (W0 m ρ c))) (Proc.devRef .tc main_arg5) = _
  after_results

theorem exit0_arg6 (c : Dev nD) : W4 m ρ c (Proc.devRef .tc main_arg6) = m ((c : Thread nD τ).loc main_arg6) := by
  rw [W4_of_ne m ρ c main_arg6 (by decide)]
  show StableHlo.after hostOps0_2 (StableHlo.after hostOps0_1 (StableHlo.after hostOps0 (W0 m ρ c))) (Proc.devRef .tc main_arg6) = _
  after_results

theorem exit0_arg10 (c : Dev nD) : W4 m ρ c (Proc.devRef .tc main_arg10) = m ((c : Thread nD τ).loc main_arg10) := by
  rw [W4_of_ne m ρ c main_arg10 (by decide)]
  show StableHlo.after hostOps0_2 (StableHlo.after hostOps0_1 (StableHlo.after hostOps0 (W0 m ρ c))) (Proc.devRef .tc main_arg10) = _
  after_results

theorem exit0_arg11 (c : Dev nD) : W4 m ρ c (Proc.devRef .tc main_arg11) = m ((c : Thread nD τ).loc main_arg11) := by
  rw [W4_of_ne m ρ c main_arg11 (by decide)]
  show StableHlo.after hostOps0_2 (StableHlo.after hostOps0_1 (StableHlo.after hostOps0 (W0 m ρ c))) (Proc.devRef .tc main_arg11) = _
  after_results

theorem exit0_arg12 (c : Dev nD) : W4 m ρ c (Proc.devRef .tc main_arg12) = m ((c : Thread nD τ).loc main_arg12) := by
  rw [W4_of_ne m ρ c main_arg12 (by decide)]
  show StableHlo.after hostOps0_2 (StableHlo.after hostOps0_1 (StableHlo.after hostOps0 (W0 m ρ c))) (Proc.devRef .tc main_arg12) = _
  after_results

theorem exit0_arg13 (c : Dev nD) : W4 m ρ c (Proc.devRef .tc main_arg13) = m ((c : Thread nD τ).loc main_arg13) := by
  rw [W4_of_ne m ρ c main_arg13 (by decide)]
  show StableHlo.after hostOps0_2 (StableHlo.after hostOps0_1 (StableHlo.after hostOps0 (W0 m ρ c))) (Proc.devRef .tc main_arg13) = _
  after_results

theorem exit0_arg14 (c : Dev nD) : W4 m ρ c (Proc.devRef .tc main_arg14) = m ((c : Thread nD τ).loc main_arg14) := by
  rw [W4_of_ne m ρ c main_arg14 (by decide)]
  show StableHlo.after hostOps0_2 (StableHlo.after hostOps0_1 (StableHlo.after hostOps0 (W0 m ρ c))) (Proc.devRef .tc main_arg14) = _
  after_results

theorem exit0_arg15 (c : Dev nD) : W4 m ρ c (Proc.devRef .tc main_arg15) = m ((c : Thread nD τ).loc main_arg15) := by
  rw [W4_of_ne m ρ c main_arg15 (by decide)]
  show StableHlo.after hostOps0_2 (StableHlo.after hostOps0_1 (StableHlo.after hostOps0 (W0 m ρ c))) (Proc.devRef .tc main_arg15) = _
  after_results

/-! ## At the second region's exit -/

theorem exit1_arg5 (c : Dev nD) : W8 m ρ c (Proc.devRef .tc main_arg5) = m ((c : Thread nD τ).loc main_arg5) := by
  rw [W8_of_ne m ρ c main_arg5 (by decide)]
  show StableHlo.after hostOps1_2 (StableHlo.after hostOps1_1 (StableHlo.after hostOps1 (W4 m ρ c))) (Proc.devRef .tc main_arg5) = _
  after_results
  exact exit0_arg5 m ρ c

theorem exit1_arg6 (c : Dev nD) : W8 m ρ c (Proc.devRef .tc main_arg6) = m ((c : Thread nD τ).loc main_arg6) := by
  rw [W8_of_ne m ρ c main_arg6 (by decide)]
  show StableHlo.after hostOps1_2 (StableHlo.after hostOps1_1 (StableHlo.after hostOps1 (W4 m ρ c))) (Proc.devRef .tc main_arg6) = _
  after_results
  exact exit0_arg6 m ρ c

theorem exit1_arg13 (c : Dev nD) : W8 m ρ c (Proc.devRef .tc main_arg13) = m ((c : Thread nD τ).loc main_arg13) := by
  rw [W8_of_ne m ρ c main_arg13 (by decide)]
  show StableHlo.after hostOps1_2 (StableHlo.after hostOps1_1 (StableHlo.after hostOps1 (W4 m ρ c))) (Proc.devRef .tc main_arg13) = _
  after_results
  exact exit0_arg13 m ρ c

theorem exit1_arg14 (c : Dev nD) : W8 m ρ c (Proc.devRef .tc main_arg14) = m ((c : Thread nD τ).loc main_arg14) := by
  rw [W8_of_ne m ρ c main_arg14 (by decide)]
  show StableHlo.after hostOps1_2 (StableHlo.after hostOps1_1 (StableHlo.after hostOps1 (W4 m ρ c))) (Proc.devRef .tc main_arg14) = _
  after_results
  exact exit0_arg14 m ρ c

theorem exit1_arg15 (c : Dev nD) : W8 m ρ c (Proc.devRef .tc main_arg15) = m ((c : Thread nD τ).loc main_arg15) := by
  rw [W8_of_ne m ρ c main_arg15 (by decide)]
  show StableHlo.after hostOps1_2 (StableHlo.after hostOps1_1 (StableHlo.after hostOps1 (W4 m ρ c))) (Proc.devRef .tc main_arg15) = _
  after_results
  exact exit0_arg15 m ρ c

end Cert.KernelIdeal.ArgsKept

end
-- ==== Proof.KerEntry1.lean ====
/-
  What the second kernel region finds in its six arrays, in the terms of the reference.
  Before this region @main slices the leading rows of the output of the layer before, takes the rows of that output
  the gather indices of this layer name, adds them into their destination rows, counts the incoming edges of each
  destination and recasts the counts as a column.  Given that the output array of the layer before is the layer the
  reference computes there (`hprev`), and that every gather index names one of its rows so that the masked take is
  the bare gather, the six arrays of the region are the stages the reference computes for this layer.
-/
import proofs.«401218_j13065290515269_1_alg».proof.Proof.Gen.KernelIdeal.Frame
import proofs.«401218_j13065290515269_1_alg».proof.Proof.Gen.ReferenceIdeal.Read
import proofs.«401218_j13065290515269_1_alg».proof.Proof.LibMaskedTake
import proofs.«401218_j13065290515269_1_alg».proof.Proof.LibColumnBroadcast
import proofs.«401218_j13065290515269_1_alg».proof.Proof.LibBufferCasts
import proofs.«401218_j13065290515269_1_alg».proof.Proof.KerArgsKept

set_option maxRecDepth 16384
set_option maxHeartbeats 4000000

noncomputable section

namespace Cert.KernelIdeal.Entry1

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The gather indices after the wrap of negative ones, as the column the gather reads. -/
abbrev wrapped (src : IVec S300000 32) : IVec S300000x1 32 :=
  broadcastInDim S300000x1 ![0] bcast_S300000_S300000x1_0
    (select (cmpi .slt src (broadcastInDim S300000 ![] bcast_S_S300000 (constantI S_ 32 0#32)))
      (addi src (broadcastInDim S300000 ![] bcast_S_S300000 (constantI S_ 32 100000#32))) src)

/-- Every entry of the wrapped column is an entry of the index vector, when none is negative. -/
theorem wrapped_at (src : IVec S300000 32) (hge : ∀ e, IntOp.cmpi .sge (src e) 0#32 = 1#1) (k : S300000x1.Idx) :
    ∃ e, wrapped src k = src e :=
  ⟨_, Cert.LibMaskedTake.wrap_of_nonneg _ _ (hge _)⟩

/-- The take's row mask: row by row, the "and" over the index's one component of the two signed comparisons
    of the wrapped index with 0 and with 99999. -/
abbrev mask (src : IVec S300000 32) : IVec S300000x256 1 :=
  broadcastInDim S300000x256 ![0] bcast_S300000_S300000x256_0
    (Host.reduce IntOp.andi
      (andi (cmpi .sge (wrapped src) (broadcastInDim S300000x1 ![] bcast_S_S300000x1 (constantI S_ 32 0#32)))
        (cmpi .sle (wrapped src) (broadcastInDim S300000x1 ![0, 1] bcast_S1x1_S300000x1_0_1
          (broadcastInDim S1x1 ![1] bcast_S1_S1x1_1 (constantI S1 32 99999#32)))))
      (constantI S_ 1 1#1) reducesTo_S300000x1_S300000_d1 h_S_)

/-- The take's row mask is 1 everywhere when every index is in [0, 100000). -/
theorem mask_ones (src : IVec S300000 32) (hge : ∀ e, IntOp.cmpi .sge (src e) 0#32 = 1#1)
    (hlt : ∀ e, IntOp.cmpi .slt (src e) 100000#32 = 1#1) (i : S300000x256.Idx) : mask src i = 1#1 := by
  have hR := Cert.LibMaskedTake.in_range_ones (wrapped src)
    (broadcastInDim S300000x1 ![] bcast_S_S300000x1 (constantI S_ 32 0#32))
    (broadcastInDim S300000x1 ![0, 1] bcast_S1x1_S300000x1_0_1 (broadcastInDim S1x1 ![1] bcast_S1_S1x1_1 (constantI S1 32 99999#32)))
    (constantI S_ 1 1#1) reducesTo_S300000x1_S300000_d1 h_S_ 100000 (by decide) (by decide)
    (fun _ => rfl) (fun _ => rfl) (fun _ => rfl)
    (fun k => by obtain ⟨e, he⟩ := wrapped_at src hge k; rw [he]; exact hge e)
    (fun k => by obtain ⟨e, he⟩ := wrapped_at src hge k; rw [he]; exact hlt e)
  exact hR _

/-! ## The six arrays -/

section
variable (c : Dev nD)
  (hprev : W4 m ρ c (Proc.devRef .tc main_v10) = Cert.ReferenceIdeal.Read.val_main_v26 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)))
include hprev

/-- The destination nodes' own features: the slice the reference takes of the layer before. -/
theorem own :
    V7 m ρ c main_v11 = Cert.ReferenceIdeal.Read.val_main_v27 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) := by
  show StableHlo.after hostOps1_2 (StableHlo.after hostOps1_1 (StableHlo.after hostOps1 (W4 m ρ c))) (Proc.devRef .tc main_v11) = _
  after_results
  rw [hprev]
  rfl

/-- What the take leaves: under the precondition on its indices, the bare gather of the wrapped indices. -/
theorem take_eq (hge : ∀ e, IntOp.cmpi .sge (m ((c : Thread nD τ).loc main_arg3) e) 0#32 = 1#1)
    (hlt : ∀ e, IntOp.cmpi .slt (m ((c : Thread nD τ).loc main_arg3) e) 100000#32 = 1#1) :
    StableHlo.after hostOps1_1 (StableHlo.after hostOps1 (W4 m ρ c)) (Proc.devRef .tc main_v12)
      = Host.gather gather_S100000x256_S300000x1_S300000x256_1_0_n_n_0_1_1256 (Cert.ReferenceIdeal.Read.val_main_v26 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9))) (wrapped (m ((c : Thread nD τ).loc main_arg3))) := by
  have e1 : (TRef.of main_arg3 : TRef sig ⟨S300000, .i32⟩).ofBuf (W4 m ρ c (Proc.devRef .tc main_arg3)) = m ((c : Thread nD τ).loc main_arg3) :=
    (show _ = W4 m ρ c (Proc.devRef .tc main_arg3) from rfl).trans (Cert.KernelIdeal.ArgsKept.exit0_arg3 m ρ c)
  have e0 : (TRef.of main_v10 : TRef sig ⟨S100000x256, .f32⟩).ofBuf (W4 m ρ c (Proc.devRef .tc main_v10)) = Cert.ReferenceIdeal.Read.val_main_v26 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) :=
    (show _ = W4 m ρ c (Proc.devRef .tc main_v10) from rfl).trans hprev
  after_results_simp
  simp only [Cert.LibBufferCasts.ofBuf_toBuf]
  rw [e1, e0, Cert.LibMaskedTake.select_ones _ _ _ (mask_ones (m ((c : Thread nD τ).loc main_arg3)) hge hlt)]
  rfl

omit hprev in
/-- The scatter indices after the take's stretch are the launch contents. -/
theorem dst_kept :
    StableHlo.after hostOps1_1 (StableHlo.after hostOps1 (W4 m ρ c)) (Proc.devRef .tc main_arg4) = m ((c : Thread nD τ).loc main_arg4) := by
  after_results_simp
  exact Cert.KernelIdeal.ArgsKept.exit0_arg4 m ρ c

/-- The summed neighbour features: the reference's scatter-addition of its bare gather. -/
theorem nbr (hge : ∀ e, IntOp.cmpi .sge (m ((c : Thread nD τ).loc main_arg3) e) 0#32 = 1#1)
    (hlt : ∀ e, IntOp.cmpi .slt (m ((c : Thread nD τ).loc main_arg3) e) 100000#32 = 1#1) :
    V7 m ρ c main_v15 = Cert.ReferenceIdeal.Read.val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) := by
  show StableHlo.after hostOps1_2 (StableHlo.after hostOps1_1 (StableHlo.after hostOps1 (W4 m ρ c))) (Proc.devRef .tc main_v15) = _
  have ht := take_eq m ρ c hprev hge hlt
  have hd := dst_kept m ρ c
  generalize StableHlo.after hostOps1_1 (StableHlo.after hostOps1 (W4 m ρ c)) = X at ht hd ⊢
  after_results
  rw [ht, hd]
  rfl
end

/-- The in-degree column, read as a vector, is the reference's in-degrees. -/
theorem deg (c : Dev nD) :
    Cert.LibColumnBroadcast.column (V7 m ρ c main_v20 : S20000x1.Idx → Elt Ideal .f32)
      = Cert.ReferenceIdeal.Read.val_main_v41 (F := Ideal) (m ((c : Thread nD τ).loc main_arg4)) := by
  have h : V7 m ρ c main_v20 = shapeCast S20000x1 (Cert.ReferenceIdeal.Read.val_main_v41 (F := Ideal) (m ((c : Thread nD τ).loc main_arg4))) shapeCasts_S20000_S20000x1 := by
    show StableHlo.after hostOps1_2 (StableHlo.after hostOps1_1 (StableHlo.after hostOps1 (W4 m ρ c))) (Proc.devRef .tc main_v20) = _
    after_results
    rw [Cert.KernelIdeal.ArgsKept.exit0_arg4 m ρ c]
    rfl
  rw [h]
  exact Cert.LibColumnBroadcast.column_shapeCast _ _

/-- The three parameter arrays are as launched. -/
theorem ws (c : Dev nD) : V7 m ρ c main_arg10 = m ((c : Thread nD τ).loc main_arg10) := by
  show StableHlo.after hostOps1_2 (StableHlo.after hostOps1_1 (StableHlo.after hostOps1 (W4 m ρ c))) (Proc.devRef .tc main_arg10) = _
  after_results
  exact Cert.KernelIdeal.ArgsKept.exit0_arg10 m ρ c
theorem wn (c : Dev nD) : V7 m ρ c main_arg11 = m ((c : Thread nD τ).loc main_arg11) := by
  show StableHlo.after hostOps1_2 (StableHlo.after hostOps1_1 (StableHlo.after hostOps1 (W4 m ρ c))) (Proc.devRef .tc main_arg11) = _
  after_results
  exact Cert.KernelIdeal.ArgsKept.exit0_arg11 m ρ c
theorem bias (c : Dev nD) : V7 m ρ c main_arg12 = m ((c : Thread nD τ).loc main_arg12) := by
  show StableHlo.after hostOps1_2 (StableHlo.after hostOps1_1 (StableHlo.after hostOps1 (W4 m ρ c))) (Proc.devRef .tc main_arg12) = _
  after_results
  exact Cert.KernelIdeal.ArgsKept.exit0_arg12 m ρ c

end Cert.KernelIdeal.Entry1

end
-- ==== Proof.KerEntry2.lean ====
/-
  What the third kernel region finds in its six arrays, in the terms of the reference.
  Before this region @main slices the leading rows of the output of the layer before, takes the rows of that output
  the gather indices of this layer name, adds them into their destination rows, counts the incoming edges of each
  destination and recasts the counts as a column.  Given that the output array of the layer before is the layer the
  reference computes there (`hprev`), and that every gather index names one of its rows so that the masked take is
  the bare gather, the six arrays of the region are the stages the reference computes for this layer.
-/
import proofs.«401218_j13065290515269_1_alg».proof.Proof.Gen.KernelIdeal.Frame
import proofs.«401218_j13065290515269_1_alg».proof.Proof.Gen.ReferenceIdeal.Read
import proofs.«401218_j13065290515269_1_alg».proof.Proof.LibMaskedTake
import proofs.«401218_j13065290515269_1_alg».proof.Proof.LibColumnBroadcast
import proofs.«401218_j13065290515269_1_alg».proof.Proof.LibBufferCasts
import proofs.«401218_j13065290515269_1_alg».proof.Proof.KerArgsKept

set_option maxRecDepth 16384
set_option maxHeartbeats 4000000

noncomputable section

namespace Cert.KernelIdeal.Entry2

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The gather indices after the wrap of negative ones, as the column the gather reads. -/
abbrev wrapped (src : IVec S61440 32) : IVec S61440x1 32 :=
  broadcastInDim S61440x1 ![0] bcast_S61440_S61440x1_0
    (select (cmpi .slt src (broadcastInDim S61440 ![] bcast_S_S61440 (constantI S_ 32 0#32)))
      (addi src (broadcastInDim S61440 ![] bcast_S_S61440 (constantI S_ 32 20000#32))) src)

/-- Every entry of the wrapped column is an entry of the index vector, when none is negative. -/
theorem wrapped_at (src : IVec S61440 32) (hge : ∀ e, IntOp.cmpi .sge (src e) 0#32 = 1#1) (k : S61440x1.Idx) :
    ∃ e, wrapped src k = src e :=
  ⟨_, Cert.LibMaskedTake.wrap_of_nonneg _ _ (hge _)⟩

/-- The take's row mask: row by row, the "and" over the index's one component of the two signed comparisons
    of the wrapped index with 0 and with 99999. -/
abbrev mask (src : IVec S61440 32) : IVec S61440x256 1 :=
  broadcastInDim S61440x256 ![0] bcast_S61440_S61440x256_0
    (Host.reduce IntOp.andi
      (andi (cmpi .sge (wrapped src) (broadcastInDim S61440x1 ![] bcast_S_S61440x1 (constantI S_ 32 0#32)))
        (cmpi .sle (wrapped src) (broadcastInDim S61440x1 ![0, 1] bcast_S1x1_S61440x1_0_1
          (broadcastInDim S1x1 ![1] bcast_S1_S1x1_1 (constantI S1 32 19999#32)))))
      (constantI S_ 1 1#1) reducesTo_S61440x1_S61440_d1 h_S_)

/-- The take's row mask is 1 everywhere when every index is in [0, 20000). -/
theorem mask_ones (src : IVec S61440 32) (hge : ∀ e, IntOp.cmpi .sge (src e) 0#32 = 1#1)
    (hlt : ∀ e, IntOp.cmpi .slt (src e) 20000#32 = 1#1) (i : S61440x256.Idx) : mask src i = 1#1 := by
  have hR := Cert.LibMaskedTake.in_range_ones (wrapped src)
    (broadcastInDim S61440x1 ![] bcast_S_S61440x1 (constantI S_ 32 0#32))
    (broadcastInDim S61440x1 ![0, 1] bcast_S1x1_S61440x1_0_1 (broadcastInDim S1x1 ![1] bcast_S1_S1x1_1 (constantI S1 32 19999#32)))
    (constantI S_ 1 1#1) reducesTo_S61440x1_S61440_d1 h_S_ 20000 (by decide) (by decide)
    (fun _ => rfl) (fun _ => rfl) (fun _ => rfl)
    (fun k => by obtain ⟨e, he⟩ := wrapped_at src hge k; rw [he]; exact hge e)
    (fun k => by obtain ⟨e, he⟩ := wrapped_at src hge k; rw [he]; exact hlt e)
  exact hR _

/-! ## The six arrays -/

section
variable (c : Dev nD)
  (hprev : W8 m ρ c (Proc.devRef .tc main_v21) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
include hprev

/-- The destination nodes' own features: the slice the reference takes of the layer before. -/
theorem own :
    V11 m ρ c main_v22 = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2_2 (StableHlo.after hostOps2_1 (StableHlo.after hostOps2 (W8 m ρ c))) (Proc.devRef .tc main_v22) = _
  after_results
  rw [hprev]
  rfl

/-- What the take leaves: under the precondition on its indices, the bare gather of the wrapped indices. -/
theorem take_eq (hge : ∀ e, IntOp.cmpi .sge (m ((c : Thread nD τ).loc main_arg5) e) 0#32 = 1#1)
    (hlt : ∀ e, IntOp.cmpi .slt (m ((c : Thread nD τ).loc main_arg5) e) 20000#32 = 1#1) :
    StableHlo.after hostOps2_1 (StableHlo.after hostOps2 (W8 m ρ c)) (Proc.devRef .tc main_v23)
      = Host.gather gather_S20000x256_S61440x1_S61440x256_1_0_n_n_0_1_1256 (Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (wrapped (m ((c : Thread nD τ).loc main_arg5))) := by
  have e1 : (TRef.of main_arg5 : TRef sig ⟨S61440, .i32⟩).ofBuf (W8 m ρ c (Proc.devRef .tc main_arg5)) = m ((c : Thread nD τ).loc main_arg5) :=
    (show _ = W8 m ρ c (Proc.devRef .tc main_arg5) from rfl).trans (Cert.KernelIdeal.ArgsKept.exit1_arg5 m ρ c)
  have e0 : (TRef.of main_v21 : TRef sig ⟨S20000x256, .f32⟩).ofBuf (W8 m ρ c (Proc.devRef .tc main_v21)) = Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
    (show _ = W8 m ρ c (Proc.devRef .tc main_v21) from rfl).trans hprev
  after_results_simp
  simp only [Cert.LibBufferCasts.ofBuf_toBuf]
  rw [e1, e0, Cert.LibMaskedTake.select_ones _ _ _ (mask_ones (m ((c : Thread nD τ).loc main_arg5)) hge hlt)]
  rfl

omit hprev in
/-- The scatter indices after the take's stretch are the launch contents. -/
theorem dst_kept :
    StableHlo.after hostOps2_1 (StableHlo.after hostOps2 (W8 m ρ c)) (Proc.devRef .tc main_arg6) = m ((c : Thread nD τ).loc main_arg6) := by
  after_results_simp
  exact Cert.KernelIdeal.ArgsKept.exit1_arg6 m ρ c

/-- The summed neighbour features: the reference's scatter-addition of its bare gather. -/
theorem nbr (hge : ∀ e, IntOp.cmpi .sge (m ((c : Thread nD τ).loc main_arg5) e) 0#32 = 1#1)
    (hlt : ∀ e, IntOp.cmpi .slt (m ((c : Thread nD τ).loc main_arg5) e) 20000#32 = 1#1) :
    V11 m ρ c main_v26 = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2_2 (StableHlo.after hostOps2_1 (StableHlo.after hostOps2 (W8 m ρ c))) (Proc.devRef .tc main_v26) = _
  have ht := take_eq m ρ c hprev hge hlt
  have hd := dst_kept m ρ c
  generalize StableHlo.after hostOps2_1 (StableHlo.after hostOps2 (W8 m ρ c)) = X at ht hd ⊢
  after_results
  rw [ht, hd]
  rfl
end

/-- The in-degree column, read as a vector, is the reference's in-degrees. -/
theorem deg (c : Dev nD) :
    Cert.LibColumnBroadcast.column (V11 m ρ c main_v31 : S4096x1.Idx → Elt Ideal .f32)
      = Cert.ReferenceIdeal.Read.val_main_v68 (F := Ideal) (m ((c : Thread nD τ).loc main_arg6)) := by
  have h : V11 m ρ c main_v31 = shapeCast S4096x1 (Cert.ReferenceIdeal.Read.val_main_v68 (F := Ideal) (m ((c : Thread nD τ).loc main_arg6))) shapeCasts_S4096_S4096x1 := by
    show StableHlo.after hostOps2_2 (StableHlo.after hostOps2_1 (StableHlo.after hostOps2 (W8 m ρ c))) (Proc.devRef .tc main_v31) = _
    after_results
    rw [Cert.KernelIdeal.ArgsKept.exit1_arg6 m ρ c]
    rfl
  rw [h]
  exact Cert.LibColumnBroadcast.column_shapeCast _ _

/-- The three parameter arrays are as launched. -/
theorem ws (c : Dev nD) : V11 m ρ c main_arg13 = m ((c : Thread nD τ).loc main_arg13) := by
  show StableHlo.after hostOps2_2 (StableHlo.after hostOps2_1 (StableHlo.after hostOps2 (W8 m ρ c))) (Proc.devRef .tc main_arg13) = _
  after_results
  exact Cert.KernelIdeal.ArgsKept.exit1_arg13 m ρ c
theorem wn (c : Dev nD) : V11 m ρ c main_arg14 = m ((c : Thread nD τ).loc main_arg14) := by
  show StableHlo.after hostOps2_2 (StableHlo.after hostOps2_1 (StableHlo.after hostOps2 (W8 m ρ c))) (Proc.devRef .tc main_arg14) = _
  after_results
  exact Cert.KernelIdeal.ArgsKept.exit1_arg14 m ρ c
theorem bias (c : Dev nD) : V11 m ρ c main_arg15 = m ((c : Thread nD τ).loc main_arg15) := by
  show StableHlo.after hostOps2_2 (StableHlo.after hostOps2_1 (StableHlo.after hostOps2 (W8 m ρ c))) (Proc.devRef .tc main_arg15) = _
  after_results
  exact Cert.KernelIdeal.ArgsKept.exit1_arg15 m ρ c

end Cert.KernelIdeal.Entry2

end
-- ==== Proof.RefLayer0.lean ====
/-
  The reference's first layer is the layer function (Spec) of its own features, summed neighbour features and
  in-degrees.  Entry (r, q) of the reference's result for this layer is read one host operation at a time:
  the two matrix products are plain sums over the 128 features, the division by the clamped in-degree reads the
  in-degree of row r through its two broadcasts, the bias reads entry q through its two broadcasts, and the layer's
  finish is the one the layer function has (Spec).  How the summed neighbour features and the in-degrees are computed is not
  opened: they stay the reference's own stages.
-/
import proofs.«401218_j13065290515269_1_alg».proof.Proof.Gen.ReferenceIdeal.Read
import proofs.«401218_j13065290515269_1_alg».proof.Proof.Spec

noncomputable section

open scoped BigOperators

namespace Cert.ReferenceIdeal.Layer0

open Cert.ReferenceIdeal Cert.ReferenceIdeal.Gen Cert.ReferenceIdeal.Read
open Idealize.ShloMosaic Idealize.ShloMosaic.TcCoe Idealize.ShloMosaic.ValueIdx

variable (x0 : (⟨S300000x128, .f32⟩ : BufTy).Contents (Elt Ideal)) (x1 x2 : (⟨S1000000, .i32⟩ : BufTy).Contents (Elt Ideal))
  (x3 x4 : (⟨S300000, .i32⟩ : BufTy).Contents (Elt Ideal)) (x5 x6 : (⟨S61440, .i32⟩ : BufTy).Contents (Elt Ideal))
  (x7 x8 : (⟨S128x256, .f32⟩ : BufTy).Contents (Elt Ideal)) (x9 : (⟨S256, .f32⟩ : BufTy).Contents (Elt Ideal))
  (x10 x11 : (⟨S256x256, .f32⟩ : BufTy).Contents (Elt Ideal)) (x12 : (⟨S256, .f32⟩ : BufTy).Contents (Elt Ideal))
  (x13 x14 : (⟨S256x47, .f32⟩ : BufTy).Contents (Elt Ideal)) (x15 : (⟨S47, .f32⟩ : BufTy).Contents (Elt Ideal))

/-- Entry `(r, q)` of the reference's first layer. -/
theorem entry_at (r : Fin 100000) (q : Fin 256) :
    val_main_v26 (F := Ideal) x0 x1 x2 x7 x8 x9 (ix2 r q) =
      Cert.Sage.clamp (Cert.Sage.entry (fun k => val_main_v0 (F := Ideal) x0 (ix2 r k)) (fun k => val_main_v10 (F := Ideal) x0 x1 x2 (ix2 r k))
        (val_main_v14 (F := Ideal) x2 (ix1 r)) (fun k => x7 (ix2 k q)) (fun k => x8 (ix2 k q)) (x9 (ix1 q))) := by
  have hl0 : ∀ k : Fin 128, lidx_main_v20 (ix2 r q) k = ix2 r k := fun k => funext fun a => by
    match a with
    | ⟨0, _⟩ => rfl
    | ⟨1, _⟩ => rfl
  have hr0 : ∀ k : Fin 128, ridx_main_v20 (ix2 r q) k = ix2 k q := fun k => funext fun a => by
    match a with
    | ⟨0, _⟩ => rfl
    | ⟨1, _⟩ => rfl
  have hl1 : ∀ k : Fin 128, lidx_main_v21 (ix2 r q) k = ix2 r k := fun k => funext fun a => by
    match a with
    | ⟨0, _⟩ => rfl
    | ⟨1, _⟩ => rfl
  have hr1 : ∀ k : Fin 128, ridx_main_v21 (ix2 r q) k = ix2 k q := fun k => funext fun a => by
    match a with
    | ⟨0, _⟩ => rfl
    | ⟨1, _⟩ => rfl
  have hd : ∀ k : Fin 128, idx_main_v17 (idx_main_v18 (ix2 r k)) = ix1 r := fun k => funext fun a => by
    match a with
    | ⟨0, _⟩ => rfl
  have hb : idx_main_v23 (idx_main_v24 (ix2 r q)) = ix1 q := funext fun a => by
    match a with
    | ⟨0, _⟩ => rfl
  rw [val_main_v26_apply, val_main_call0_v0_apply, val_main_call0_cst_apply]
  rw [val_main_v25_apply, val_main_v24_apply, val_main_v23_apply, val_main_v22_apply, val_main_v21_apply, val_main_v20_apply]
  simp only [hl0, hr0, hl1, hr1, hb, val_main_v19_apply, val_main_v18_apply, val_main_v17_apply, val_main_v16_apply,
    val_main_v15_apply, val_main_cst_3_apply, hd]
  rfl

/-- The reference's first layer is the layer function of its three computed arrays and its parameters. -/
theorem layer_eq :
    val_main_v26 (F := Ideal) x0 x1 x2 x7 x8 x9
      = Cert.Sage.layer0 (val_main_v0 (F := Ideal) x0) (val_main_v10 (F := Ideal) x0 x1 x2) (val_main_v14 (F := Ideal) x2) x7 x8 x9 := by
  funext i
  obtain ⟨r, q, rfl⟩ : ∃ (r : Fin 100000) (q : Fin 256), i = ix2 r q := ⟨i 0, i 1, eq_ix2 i⟩
  rw [entry_at]
  rfl

end Cert.ReferenceIdeal.Layer0

end
-- ==== Proof.RefLayer1.lean ====
/-
  The reference's second layer is the layer function (Spec) of its own features, summed neighbour features and
  in-degrees.  Entry (r, q) of the reference's result for this layer is read one host operation at a time:
  the two matrix products are plain sums over the 256 features, the division by the clamped in-degree reads the
  in-degree of row r through its two broadcasts, the bias reads entry q through its two broadcasts, and the layer's
  finish is the one the layer function has (Spec).  How the summed neighbour features and the in-degrees are computed is not
  opened: they stay the reference's own stages.
-/
import proofs.«401218_j13065290515269_1_alg».proof.Proof.Gen.ReferenceIdeal.Read
import proofs.«401218_j13065290515269_1_alg».proof.Proof.Spec

noncomputable section

open scoped BigOperators

namespace Cert.ReferenceIdeal.Layer1

open Cert.ReferenceIdeal Cert.ReferenceIdeal.Gen Cert.ReferenceIdeal.Read
open Idealize.ShloMosaic Idealize.ShloMosaic.TcCoe Idealize.ShloMosaic.ValueIdx

variable (x0 : (⟨S300000x128, .f32⟩ : BufTy).Contents (Elt Ideal)) (x1 x2 : (⟨S1000000, .i32⟩ : BufTy).Contents (Elt Ideal))
  (x3 x4 : (⟨S300000, .i32⟩ : BufTy).Contents (Elt Ideal)) (x5 x6 : (⟨S61440, .i32⟩ : BufTy).Contents (Elt Ideal))
  (x7 x8 : (⟨S128x256, .f32⟩ : BufTy).Contents (Elt Ideal)) (x9 : (⟨S256, .f32⟩ : BufTy).Contents (Elt Ideal))
  (x10 x11 : (⟨S256x256, .f32⟩ : BufTy).Contents (Elt Ideal)) (x12 : (⟨S256, .f32⟩ : BufTy).Contents (Elt Ideal))
  (x13 x14 : (⟨S256x47, .f32⟩ : BufTy).Contents (Elt Ideal)) (x15 : (⟨S47, .f32⟩ : BufTy).Contents (Elt Ideal))

/-- Entry `(r, q)` of the reference's second layer. -/
theorem entry_at (r : Fin 20000) (q : Fin 256) :
    val_main_v53 (F := Ideal) x0 x1 x2 x3 x4 x7 x8 x9 x10 x11 x12 (ix2 r q) =
      Cert.Sage.clamp (Cert.Sage.entry (fun k => val_main_v27 (F := Ideal) x0 x1 x2 x7 x8 x9 (ix2 r k)) (fun k => val_main_v37 (F := Ideal) x0 x1 x2 x3 x4 x7 x8 x9 (ix2 r k))
        (val_main_v41 (F := Ideal) x4 (ix1 r)) (fun k => x10 (ix2 k q)) (fun k => x11 (ix2 k q)) (x12 (ix1 q))) := by
  have hl0 : ∀ k : Fin 256, lidx_main_v47 (ix2 r q) k = ix2 r k := fun k => funext fun a => by
    match a with
    | ⟨0, _⟩ => rfl
    | ⟨1, _⟩ => rfl
  have hr0 : ∀ k : Fin 256, ridx_main_v47 (ix2 r q) k = ix2 k q := fun k => funext fun a => by
    match a with
    | ⟨0, _⟩ => rfl
    | ⟨1, _⟩ => rfl
  have hl1 : ∀ k : Fin 256, lidx_main_v48 (ix2 r q) k = ix2 r k := fun k => funext fun a => by
    match a with
    | ⟨0, _⟩ => rfl
    | ⟨1, _⟩ => rfl
  have hr1 : ∀ k : Fin 256, ridx_main_v48 (ix2 r q) k = ix2 k q := fun k => funext fun a => by
    match a with
    | ⟨0, _⟩ => rfl
    | ⟨1, _⟩ => rfl
  have hd : ∀ k : Fin 256, idx_main_v44 (idx_main_v45 (ix2 r k)) = ix1 r := fun k => funext fun a => by
    match a with
    | ⟨0, _⟩ => rfl
  have hb : idx_main_v50 (idx_main_v51 (ix2 r q)) = ix1 q := funext fun a => by
    match a with
    | ⟨0, _⟩ => rfl
  rw [val_main_v53_apply, val_main_call1_v0_apply, val_main_call1_cst_apply]
  rw [val_main_v52_apply, val_main_v51_apply, val_main_v50_apply, val_main_v49_apply, val_main_v48_apply, val_main_v47_apply]
  simp only [hl0, hr0, hl1, hr1, hb, val_main_v46_apply, val_main_v45_apply, val_main_v44_apply, val_main_v43_apply,
    val_main_v42_apply, val_main_cst_9_apply, hd]
  rfl

/-- The reference's second layer is the layer function of its three computed arrays and its parameters. -/
theorem layer_eq :
    val_main_v53 (F := Ideal) x0 x1 x2 x3 x4 x7 x8 x9 x10 x11 x12
      = Cert.Sage.layer1 (val_main_v27 (F := Ideal) x0 x1 x2 x7 x8 x9) (val_main_v37 (F := Ideal) x0 x1 x2 x3 x4 x7 x8 x9) (val_main_v41 (F := Ideal) x4) x10 x11 x12 := by
  funext i
  obtain ⟨r, q, rfl⟩ : ∃ (r : Fin 20000) (q : Fin 256), i = ix2 r q := ⟨i 0, i 1, eq_ix2 i⟩
  rw [entry_at]
  rfl

end Cert.ReferenceIdeal.Layer1

end
-- ==== Proof.RefLayer2.lean ====
/-
  The reference's output layer is the layer function (Spec) of its own features, summed neighbour features and
  in-degrees.  Entry (r, q) of the reference's result for this layer is read one host operation at a time:
  the two matrix products are plain sums over the 256 features, the division by the clamped in-degree reads the
  in-degree of row r through its two broadcasts, the bias reads entry q through its two broadcasts, and the layer's
  finish is the one the layer function has (Spec).  How the summed neighbour features and the in-degrees are computed is not
  opened: they stay the reference's own stages.
-/
import proofs.«401218_j13065290515269_1_alg».proof.Proof.Gen.ReferenceIdeal.Read
import proofs.«401218_j13065290515269_1_alg».proof.Proof.Spec

noncomputable section

open scoped BigOperators

namespace Cert.ReferenceIdeal.Layer2

open Cert.ReferenceIdeal Cert.ReferenceIdeal.Gen Cert.ReferenceIdeal.Read
open Idealize.ShloMosaic Idealize.ShloMosaic.TcCoe Idealize.ShloMosaic.ValueIdx

variable (x0 : (⟨S300000x128, .f32⟩ : BufTy).Contents (Elt Ideal)) (x1 x2 : (⟨S1000000, .i32⟩ : BufTy).Contents (Elt Ideal))
  (x3 x4 : (⟨S300000, .i32⟩ : BufTy).Contents (Elt Ideal)) (x5 x6 : (⟨S61440, .i32⟩ : BufTy).Contents (Elt Ideal))
  (x7 x8 : (⟨S128x256, .f32⟩ : BufTy).Contents (Elt Ideal)) (x9 : (⟨S256, .f32⟩ : BufTy).Contents (Elt Ideal))
  (x10 x11 : (⟨S256x256, .f32⟩ : BufTy).Contents (Elt Ideal)) (x12 : (⟨S256, .f32⟩ : BufTy).Contents (Elt Ideal))
  (x13 x14 : (⟨S256x47, .f32⟩ : BufTy).Contents (Elt Ideal)) (x15 : (⟨S47, .f32⟩ : BufTy).Contents (Elt Ideal))

/-- Entry `(r, q)` of the reference's output layer. -/
theorem entry_at (r : Fin 4096) (q : Fin 47) :
    val_main_v79 (F := Ideal) x0 x1 x2 x3 x4 x5 x6 x7 x8 x9 x10 x11 x12 x13 x14 x15 (ix2 r q) =
      (Cert.Sage.entry (fun k => val_main_v54 (F := Ideal) x0 x1 x2 x3 x4 x7 x8 x9 x10 x11 x12 (ix2 r k)) (fun k => val_main_v64 (F := Ideal) x0 x1 x2 x3 x4 x5 x6 x7 x8 x9 x10 x11 x12 (ix2 r k))
        (val_main_v68 (F := Ideal) x6 (ix1 r)) (fun k => x13 (ix2 k q)) (fun k => x14 (ix2 k q)) (x15 (ix1 q))) := by
  have hl0 : ∀ k : Fin 256, lidx_main_v74 (ix2 r q) k = ix2 r k := fun k => funext fun a => by
    match a with
    | ⟨0, _⟩ => rfl
    | ⟨1, _⟩ => rfl
  have hr0 : ∀ k : Fin 256, ridx_main_v74 (ix2 r q) k = ix2 k q := fun k => funext fun a => by
    match a with
    | ⟨0, _⟩ => rfl
    | ⟨1, _⟩ => rfl
  have hl1 : ∀ k : Fin 256, lidx_main_v75 (ix2 r q) k = ix2 r k := fun k => funext fun a => by
    match a with
    | ⟨0, _⟩ => rfl
    | ⟨1, _⟩ => rfl
  have hr1 : ∀ k : Fin 256, ridx_main_v75 (ix2 r q) k = ix2 k q := fun k => funext fun a => by
    match a with
    | ⟨0, _⟩ => rfl
    | ⟨1, _⟩ => rfl
  have hd : ∀ k : Fin 256, idx_main_v71 (idx_main_v72 (ix2 r k)) = ix1 r := fun k => funext fun a => by
    match a with
    | ⟨0, _⟩ => rfl
  have hb : idx_main_v77 (idx_main_v78 (ix2 r q)) = ix1 q := funext fun a => by
    match a with
    | ⟨0, _⟩ => rfl
  rw [val_main_v79_apply, val_main_v78_apply, val_main_v77_apply, val_main_v76_apply, val_main_v75_apply, val_main_v74_apply]
  simp only [hl0, hr0, hl1, hr1, hb, val_main_v73_apply, val_main_v72_apply, val_main_v71_apply, val_main_v70_apply,
    val_main_v69_apply, val_main_cst_15_apply, hd]
  rfl

/-- The reference's output layer is the layer function of its three computed arrays and its parameters. -/
theorem layer_eq :
    val_main_v79 (F := Ideal) x0 x1 x2 x3 x4 x5 x6 x7 x8 x9 x10 x11 x12 x13 x14 x15
      = Cert.Sage.layer2 (val_main_v54 (F := Ideal) x0 x1 x2 x3 x4 x7 x8 x9 x10 x11 x12) (val_main_v64 (F := Ideal) x0 x1 x2 x3 x4 x5 x6 x7 x8 x9 x10 x11 x12) (val_main_v68 (F := Ideal) x6) x13 x14 x15 := by
  funext i
  obtain ⟨r, q, rfl⟩ : ∃ (r : Fin 4096) (q : Fin 47), i = ix2 r q := ⟨i 0, i 1, eq_ix2 i⟩
  rw [entry_at]
  rfl

end Cert.ReferenceIdeal.Layer2

end
-- ==== Proof.KerChain.lean ====
/-
  The kernel program's result array is the reference's result, as the reference's own stages of the launch memory.
  Layer by layer: a region's output array is the layer function (Spec) of the six arrays the region finds
  (the blocks tile the rows); those six arrays are the reference's stages for that layer (the host stretch before the
  region computes them as the reference does, the masked take being the bare gather where every gather index names a
  row); and the reference's layer is the same layer function of the same stages.  So the first region's output is the
  reference's first layer, hence the second's is its second layer, hence the result array is its result.
-/
import proofs.«401218_j13065290515269_1_alg».proof.Proof.KerArray0
import proofs.«401218_j13065290515269_1_alg».proof.Proof.KerArray1
import proofs.«401218_j13065290515269_1_alg».proof.Proof.KerArray2
import proofs.«401218_j13065290515269_1_alg».proof.Proof.KerEntry0
import proofs.«401218_j13065290515269_1_alg».proof.Proof.KerEntry1
import proofs.«401218_j13065290515269_1_alg».proof.Proof.KerEntry2
import proofs.«401218_j13065290515269_1_alg».proof.Proof.RefLayer0
import proofs.«401218_j13065290515269_1_alg».proof.Proof.RefLayer1
import proofs.«401218_j13065290515269_1_alg».proof.Proof.RefLayer2

set_option maxRecDepth 16384

noncomputable section

namespace Cert.KernelIdeal.Chain

open Cert.KernelIdeal Cert.KernelIdeal.Gen Idealize.ShloMosaic Idealize.ShloMosaic.TcCoe Idealize.SL.Sem
open Cert.ReferenceIdeal.Read

variable (m : (ℓ : Loc nD τ sig) → Buf (Elt Ideal) ℓ) (ρ : Dev nD → PrngReg) (c : Dev nD)

/-- The first region's output array is the reference's first layer. -/
theorem first (hge : ∀ e, IntOp.cmpi .sge (m ((c : Thread nD τ).loc main_arg1) e) 0#32 = 1#1)
    (hlt : ∀ e, IntOp.cmpi .slt (m ((c : Thread nD τ).loc main_arg1) e) 300000#32 = 1#1) :
    W4 m ρ c (Proc.devRef .tc main_v10) = val_main_v26 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)) := by
  refine (show W4 m ρ c (Proc.devRef .tc main_v10) = (dat0 (V3 m ρ) c).arrAt 6 cfg0.N from W4_arr m ρ c 6).trans ?_
  rw [Cert.KernelIdeal.Array0.array (V3 m ρ) c]
  unfold Cert.KernelIdeal.Array0.result
  rw [Cert.KernelIdeal.Entry0.own m ρ c, Cert.KernelIdeal.Entry0.nbr m ρ c hge hlt, Cert.KernelIdeal.Entry0.deg m ρ c,
    Cert.KernelIdeal.Entry0.ws m ρ c, Cert.KernelIdeal.Entry0.wn m ρ c, Cert.KernelIdeal.Entry0.bias m ρ c]
  exact (Cert.ReferenceIdeal.Layer0.layer_eq _ _ _ _ _ _).symm

/-- The second region's output array is the reference's second layer. -/
theorem second (hprev : W4 m ρ c (Proc.devRef .tc main_v10) = val_main_v26 (F := Ideal) (m ((c : Thread nD τ).loc main_arg0)) (m ((c : Thread nD τ).loc main_arg1)) (m ((c : Thread nD τ).loc main_arg2)) (m ((c : Thread nD τ).loc main_arg7)) (m ((c : Thread nD τ).loc main_arg8)) (m ((c : Thread nD τ).loc main_arg9)))
    (hge : ∀ e, IntOp.cmpi .sge (m ((c : Thread nD τ).loc main_arg3) e) 0#32 = 1#1)
    (hlt : ∀ e, IntOp.cmpi .slt (m ((c : Thread nD τ).loc main_arg3) e) 100000#32 = 1#1) :
    W8 m ρ c (Proc.devRef .tc main_v21) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (show W8 m ρ c (Proc.devRef .tc main_v21) = (dat1 (V7 m ρ) c).arrAt 6 cfg1.N from W8_arr m ρ c 6).trans ?_
  rw [Cert.KernelIdeal.Array1.array (V7 m ρ) c]
  unfold Cert.KernelIdeal.Array1.result
  rw [Cert.KernelIdeal.Entry1.own m ρ c hprev, Cert.KernelIdeal.Entry1.nbr m ρ c hprev hge hlt, Cert.KernelIdeal.Entry1.deg m ρ c,
    Cert.KernelIdeal.Entry1.ws m ρ c, Cert.KernelIdeal.Entry1.wn m ρ c, Cert.KernelIdeal.Entry1.bias m ρ c]
  exact (Cert.ReferenceIdeal.Layer1.layer_eq _ _ _ _ _ _ _ _ _ _ _).symm

/-- The result array is the reference's result. -/
theorem third (hprev : W8 m ρ c (Proc.devRef .tc main_v21) = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)))
    (hge : ∀ e, IntOp.cmpi .sge (m ((c : Thread nD τ).loc main_arg5) e) 0#32 = 1#1)
    (hlt : ∀ e, IntOp.cmpi .slt (m ((c : Thread nD τ).loc main_arg5) e) 20000#32 = 1#1) :
    W12 m ρ c (Proc.devRef .tc main_v32) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (show W12 m ρ c (Proc.devRef .tc main_v32) = (dat2 (V11 m ρ) c).arrAt 6 cfg2.N from W12_arr m ρ c 6).trans ?_
  rw [Cert.KernelIdeal.Array2.array (V11 m ρ) c]
  unfold Cert.KernelIdeal.Array2.result
  rw [Cert.KernelIdeal.Entry2.own m ρ c hprev, Cert.KernelIdeal.Entry2.nbr m ρ c hprev hge hlt, Cert.KernelIdeal.Entry2.deg m ρ c,
    Cert.KernelIdeal.Entry2.ws m ρ c, Cert.KernelIdeal.Entry2.wn m ρ c, Cert.KernelIdeal.Entry2.bias m ρ c]
  exact (Cert.ReferenceIdeal.Layer2.layer_eq _ _ _ _ _ _ _ _ _ _ _ _ _ _ _ _).symm

end Cert.KernelIdeal.Chain

end
-- ==== Proof.PreIndices.lean ====
/-
  What the precondition says about the three gather index inputs.
  The printed predicate is a conjunction, associated to the left, of one "all entries" reduction per conjunct; the
  last six say that every entry of the first, second and third gather index vector is at least 0 and below
  300000, 100000 and 20000: the number of rows of the table each one indexes.  A reduction by "and" that came out 1
  had a 1 at every entry, so each conjunct gives its comparison at every entry.
-/
import proofs.«401218_j13065290515269_1_alg».proof.Pre_finite_inputs
import Idealize.ShloMosaic.Lib.ReduceAll
import Idealize.ShloMosaic.Lib.ValueIdx

noncomputable section

namespace Cert.Pre_finite_inputs.Indices

open Cert.Pre_finite_inputs Idealize.ShloMosaic

variable [Cert.Pre_finite_inputs.Facts]
open Cert.Pre_finite_inputs.Facts

instance : Subsingleton S_.Idx := ⟨fun a b => funext fun d => d.elim0⟩

/-- The conjunction of two one-entry truth values is 1 exactly when both are. -/
theorem and_one (a b : IVec S_ 1) (i : S_.Idx) : andi a b i = 1#1 ↔ a i = 1#1 ∧ b i = 1#1 :=
  IntOp.andi_eq_one

variable {F : FTy → Type} [FloatOps F]

/-- The last part of the predicate: the third index vector's two conjuncts, and whatever came before. -/
theorem of_part4 (a5 : IVec S61440 32) (v64 : IVec S_ 1) (v66 : IVec S61440 1)
    (h : fn_part4 (F := F) a5 v64 v66 = fun _ => 1#1) :
    v64 ValueIdx.ix0 = 1#1 ∧ (∀ e, v66 e = 1#1) ∧ (∀ e, IntOp.cmpi .slt (a5 e) 20000#32 = 1#1) := by
  have e := congrFun h ValueIdx.ix0
  unfold fn_part4 at e
  dsimp only at e
  rw [and_one, and_one] at e
  obtain ⟨⟨e0, e1⟩, e2⟩ := e
  exact ⟨e0, fun i => Host.reduce_andi_all _ _ _ _ _ e1 i, fun i => Host.reduce_andi_all _ _ _ _ _ e2 i⟩

/-- The part before it: the first index vector's upper bound, the second's two conjuncts, and the third's lower bound
    handed on. -/
theorem of_part3 (a1 : IVec S1000000 32) (a3 : IVec S300000 32) (a5 : IVec S61440 32) (v48 : IVec S_ 1) (v50 : IVec S1000000 1)
    (h : fn_part3 (F := F) a1 a3 a5 v48 v50 = fun _ => 1#1) :
    (∀ e, v50 e = 1#1) ∧ (∀ e, IntOp.cmpi .slt (a1 e) 300000#32 = 1#1)
    ∧ (∀ e, IntOp.cmpi .sge (a3 e) 0#32 = 1#1) ∧ (∀ e, IntOp.cmpi .slt (a3 e) 100000#32 = 1#1)
    ∧ (∀ e, IntOp.cmpi .sge (a5 e) 0#32 = 1#1) ∧ (∀ e, IntOp.cmpi .slt (a5 e) 20000#32 = 1#1) := by
  unfold fn_part3 at h
  dsimp only at h
  obtain ⟨e, g0, g1⟩ := of_part4 _ _ _ h
  rw [and_one, and_one, and_one, and_one] at e
  obtain ⟨⟨⟨⟨-, e0⟩, e1⟩, e2⟩, e3⟩ := e
  exact ⟨fun i => Host.reduce_andi_all _ _ _ _ _ e0 i, fun i => Host.reduce_andi_all _ _ _ _ _ e1 i,
    fun i => Host.reduce_andi_all _ _ _ _ _ e2 i, fun i => Host.reduce_andi_all _ _ _ _ _ e3 i, g0, g1⟩

/-- The precondition, at its three gather index inputs: every entry names a row of the table it indexes. -/
theorem in_range (a0 : FVec F S300000x128 .f32) (a1 a2 : IVec S1000000 32) (a3 a4 : IVec S300000 32) (a5 a6 : IVec S61440 32)
    (a7 a8 : FVec F S128x256 .f32) (a9 : FVec F S256 .f32) (a10 a11 : FVec F S256x256 .f32) (a12 : FVec F S256 .f32)
    (a13 a14 : FVec F S256x47 .f32) (a15 : FVec F S47 .f32)
    (h : fn (F := F) a0 a1 a2 a3 a4 a5 a6 a7 a8 a9 a10 a11 a12 a13 a14 a15 = fun _ => 1#1) :
    (∀ e, IntOp.cmpi .sge (a1 e) 0#32 = 1#1) ∧ (∀ e, IntOp.cmpi .slt (a1 e) 300000#32 = 1#1)
    ∧ (∀ e, IntOp.cmpi .sge (a3 e) 0#32 = 1#1) ∧ (∀ e, IntOp.cmpi .slt (a3 e) 100000#32 = 1#1)
    ∧ (∀ e, IntOp.cmpi .sge (a5 e) 0#32 = 1#1) ∧ (∀ e, IntOp.cmpi .slt (a5 e) 20000#32 = 1#1) := by
  unfold fn fn_part1 fn_part2 at h
  dsimp only at h
  obtain ⟨g0, g1, g2, g3, g4, g5⟩ := of_part3 _ _ _ _ _ h
  exact ⟨g0, g1, g2, g3, g4, g5⟩

end Cert.Pre_finite_inputs.Indices

end
-- ==== Proof.lean ====
/-
  Three layers of mean-aggregating graph convolution: the Pallas program against its jnp reference, over the
  extended reals.

  Each layer gathers the rows of its input the edge list names, adds them into their destination rows
  (`segment_sum`), counts each destination's incoming edges, and forms, for destination row r and output column q,
      (Σ_k h[r,k]·Ws[k,q] + Σ_k (agg[r,k] / max(deg[r], 1))·Wn[k,q]) + b[q],
  clamped below at 0 in the two hidden layers.  The kernel program does the gather and the two scatter-additions on
  the host, exactly as the reference does, and the dense part in a pallas_call over row blocks (2000 rows a block in
  the hidden layers, 512 in the output layer); on the extended reals the kernel's changes of float format are the
  identity and its matrix products into a zero accumulator are the plain sums, so block by block it computes the same
  entries as the reference's `dot_general`s, with the same grouping of the three summands: no algebraic law is
  needed, the two sides are one function entry by entry (Spec, KerBody*, RefLayer*).

  The one difference between the programs is the gather: the reference's `h[src]` is a bare gather, which clamps an
  index outside the table, while the kernel's `jnp.take` masks the rows whose index is outside the table with a NaN
  fill.  The precondition says every gather index names a row of the table it indexes; then the mask is 1 at every
  row and the masked take is the bare gather (LibMaskedTake, KerEntry*).  Finiteness of the float inputs is not used.

  The frames of the two kernel programs are the generated ones; the reference's frame is its generated run with the
  result dropped.  The kernel's value run is the generated launch called again with the result array named at the last
  region boundary (KerResultRun), and that array is followed back through the three regions (KerArray*: the row blocks
  tile each output array; KerChain).
-/
import proofs.«401218_j13065290515269_1_alg».proof.Defs
import proofs.«401218_j13065290515269_1_alg».proof.Proof.Gen.Kernel
import proofs.«401218_j13065290515269_1_alg».proof.Proof.Gen.Kernel.Skeleton
import proofs.«401218_j13065290515269_1_alg».proof.Proof.Gen.Kernel.Launch
import proofs.«401218_j13065290515269_1_alg».proof.Proof.Gen.Kernel.Points
import proofs.«401218_j13065290515269_1_alg».proof.Proof.Gen.Kernel.Frame
import proofs.«401218_j13065290515269_1_alg».proof.Proof.Gen.KernelIdeal
import proofs.«401218_j13065290515269_1_alg».proof.Proof.Gen.KernelIdeal.Skeleton
import proofs.«401218_j13065290515269_1_alg».proof.Proof.Gen.KernelIdeal.Launch
import proofs.«401218_j13065290515269_1_alg».proof.Proof.Gen.KernelIdeal.Points
import proofs.«401218_j13065290515269_1_alg».proof.Proof.Gen.KernelIdeal.Frame
import proofs.«401218_j13065290515269_1_alg».proof.Proof.Gen.ReferenceIdeal
import proofs.«401218_j13065290515269_1_alg».proof.Proof.Gen.Pre_finite_inputs
import proofs.«401218_j13065290515269_1_alg».proof.Proof.Gen.ReferenceIdeal.Run
import proofs.«401218_j13065290515269_1_alg».proof.Proof.Gen.ReferenceIdeal.Read
import proofs.«401218_j13065290515269_1_alg».proof.Proof.KerResultRun
import proofs.«401218_j13065290515269_1_alg».proof.Proof.KerChain
import proofs.«401218_j13065290515269_1_alg».proof.Proof.PreIndices
import Idealize.ShloMosaic.Adequacy
import Idealize.ShloMosaic.Init

set_option maxRecDepth 16384

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments: the generated frame. -/
theorem frame_kernel : Cert.frame_Kernel := fun m ρ _ => Cert.Kernel.Gen.frame m ρ

/-- The idealized kernel program runs and leaves its arguments: the generated frame. -/
theorem frame_kernel_ideal : Cert.frame_KernelIdeal := fun m ρ _ => Cert.KernelIdeal.Gen.frame m ρ

/-- The idealized reference runs and leaves its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the arguments, under the precondition, both programs end with the same result array:
    the kernel's is followed back through its three regions to the reference's own stages of the launch memory. -/
theorem algebraic : Cert.algebraic_KernelIdeal_ReferenceIdeal := by
  intro m ρ m' ρ' hpre hagree
  refine ⟨fun c => Cert.KernelIdeal.Gen.W12 m ρ c (Proc.devRef .tc Cert.KernelIdeal.main_v32),
    Cert.KernelIdeal.ResultRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5⟩ := Cert.Pre_finite_inputs.Indices.in_range _ _ _ _ _ _ _ _ _ _ _ _ _ _ _ _ (hpre c)
  obtain ⟨a0, a1, a2, a3, a4, a5, a6, a7, a8, a9, a10, a11, a12, a13, a14, a15⟩ := hagree c
  rw [Cert.ReferenceIdeal.Read.val_main_v79_eq m' c, a0, a1, a2, a3, a4, a5, a6, a7, a8, a9, a10, a11, a12, a13, a14, a15]
  exact (Cert.KernelIdeal.Chain.third m ρ c
    (Cert.KernelIdeal.Chain.second m ρ c (Cert.KernelIdeal.Chain.first m ρ c g0 g1) g2 g3) g4 g5).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
